-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x32 : Shape := ⟨2, ![128, 32]⟩
abbrev S32 : Shape := ⟨1, ![32]⟩
abbrev S32x128 : Shape := ⟨2, ![32, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_v48 : IVec S_ 1) (main_v49 : FVec F S32x128 .f32) (main_v50 : FVec F S32x128 .f32) : IVec S_ 1 :=
  let main_v51 : IVec S32x128 1 := cmpf .olt main_v49 main_v50
  let main_c_19 : IVec S_ 1 := constantI S_ 1 1#1
  let main_v52 : IVec S_ 1 := (fun x v => Host.reduce IntOp.andi x v reducesTo_S32x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S32 .f32) (main_arg8 : FVec F S32 .f32) (main_arg9 : FVec F S32 .f32) (main_arg10 : FVec F S32x128 .f32) (main_arg11 : FVec F S128 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x128 .f32 := Host.absf main_arg10
  let main_cst_18 : FVec F S_ .f32 := constant S_ .f32 0x7F800000#32
  let main_v50 : FVec F S32x128 .f32 := broadcastInDim S32x128 ![] bcast_S_S32x128 main_cst_18
  fn_part3 (F := F) main_arg11 main_v48 main_v49 main_v50

def fn_part1 {F : FTy → Type} [FloatOps F] (main_arg4 : FVec F S128x32 .f32) (main_arg5 : FVec F S32 .f32) (main_arg6 : FVec F S128x32 .f32) (main_arg7 : FVec F S32 .f32) (main_arg8 : FVec F S32 .f32) (main_arg9 : FVec F S32 .f32) (main_arg10 : FVec F S32x128 .f32) (main_arg11 : FVec F S128 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S128x32 .f32 := Host.absf main_arg4
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S128x32 .f32 := Host.absf main_arg6
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x128 .f32) (main_arg1 : FVec F S8192x128 .f32) (main_arg2 : FVec F S128x32 .f32) (main_arg3 : FVec F S32 .f32) (main_arg4 : FVec F S128x32 .f32) (main_arg5 : FVec F S32 .f32) (main_arg6 : FVec F S128x32 .f32) (main_arg7 : FVec F S32 .f32) (main_arg8 : FVec F S32 .f32) (main_arg9 : FVec F S32 .f32) (main_arg10 : FVec F S32x128 .f32) (main_arg11 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_v13 main_v16
-- ==== Kernel.lean ====
abbrev S8192x128 : Shape := ⟨2, ![8192, 128]⟩
abbrev S128x32 : Shape := ⟨2, ![128, 32]⟩
abbrev S32 : Shape := ⟨1, ![32]⟩
abbrev S32x128 : Shape := ⟨2, ![32, 128]⟩
abbrev S128 : Shape := ⟨1, ![128]⟩
abbrev S32x8192 : Shape := ⟨2, ![32, 8192]⟩
abbrev S8192x32 : Shape := ⟨2, ![8192, 32]⟩
abbrev S1024x128 : Shape := ⟨2, ![1024, 128]⟩
abbrev S32x1024 : Shape := ⟨2, ![32, 1024]⟩
abbrev S1024x32 : Shape := ⟨2, ![1024, 32]⟩
abbrev S1x32 : Shape := ⟨2, ![1, 32]⟩
abbrev S256x128 : Shape := ⟨2, ![256, 128]⟩
abbrev S256x32 : Shape := ⟨2, ![256, 32]⟩
abbrev S256x8192 : Shape := ⟨2, ![256, 8192]⟩
abbrev S256 : Shape := ⟨1, ![256]⟩
abbrev S256x1 : Shape := ⟨2, ![256, 1]⟩
abbrev S1x128 : Shape := ⟨2, ![1, 128]⟩

abbrev nBuf : Space → Nat
  | .hbm => 15
  | .vmem => 22
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S128x32, .f32⟩
  | .hbm, ⟨3, _⟩ => ⟨S32, .f32⟩
  | .hbm, ⟨4, _⟩ => ⟨S128x32, .f32⟩
  | .hbm, ⟨5, _⟩ => ⟨S32, .f32⟩
  | .hbm, ⟨6, _⟩ => ⟨S128x32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32x128, .f32⟩
  | .hbm, ⟨11, _⟩ => ⟨S128, .f32⟩
  | .hbm, ⟨12, _⟩ => ⟨S32x8192, .bf16⟩
  | .hbm, ⟨13, _⟩ => ⟨S8192x32, .bf16⟩
  | .hbm, ⟨14, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S128x32, .f32⟩
  | .local _ .vmem, ⟨3, _⟩ => ⟨S32, .f32⟩
  | .local _ .vmem, ⟨4, _⟩ => ⟨S128x32, .f32⟩
  | .local _ .vmem, ⟨5, _⟩ => ⟨S32, .f32⟩
  | .local _ .vmem, ⟨6, _⟩ => ⟨S32x1024, .bf16⟩
  | .local _ .vmem, ⟨7, _⟩ => ⟨S32x1024, .bf16⟩
  | .local _ .vmem, ⟨8, _⟩ => ⟨S1024x32, .bf16⟩
  | .local _ .vmem, ⟨9, _⟩ => ⟨S1024x32, .bf16⟩
  | .local _ .vmem, ⟨10, _⟩ => ⟨S256x128, .f32⟩
  | .local _ .vmem, ⟨11, _⟩ => ⟨S256x128, .f32⟩
  | .local _ .vmem, ⟨12, _⟩ => ⟨S128x32, .f32⟩
  | .local _ .vmem, ⟨13, _⟩ => ⟨S32, .f32⟩
  | .local _ .vmem, ⟨14, _⟩ => ⟨S32x8192, .bf16⟩
  | .local _ .vmem, ⟨15, _⟩ => ⟨S8192x32, .bf16⟩
  | .local _ .vmem, ⟨16, _⟩ => ⟨S32, .f32⟩
  | .local _ .vmem, ⟨17, _⟩ => ⟨S32, .f32⟩
  | .local _ .vmem, ⟨18, _⟩ => ⟨S32x128, .f32⟩
  | .local _ .vmem, ⟨19, _⟩ => ⟨S128, .f32⟩
  | .local _ .vmem, ⟨20, _⟩ => ⟨S256x128, .f32⟩
  | .local _ .vmem, ⟨21, _⟩ => ⟨S256x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x32 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x8192 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8192x32 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  transposes_S1024x32_p1_0_S32x1024 : S1024x32.Transposes [1, 0] S32x1024
  inb_S32x1024_S32x1024_0_0 : ∀ a, (![0, 0] : Fin 2 → Nat) a + S32x1024.size a ≤ S32x1024.size a
  h_S32x1024 : 0 < S32x1024.numel
  packedbf16_S32x1024_S32x1024_0_0 : (Rect.unit (s := S32x1024) ![0, 0] S32x1024.size inb_S32x1024_S32x1024_0_0).PackedRows (EltTy.packing .bf16)
  inb_S1024x32_S1024x32_0_0 : ∀ a, (![0, 0] : Fin 2 → Nat) a + S1024x32.size a ≤ S1024x32.size a
  h_S1024x32 : 0 < S1024x32.numel
  packedbf16_S1024x32_S1024x32_0_0 : (Rect.unit (s := S1024x32) ![0, 0] S1024x32.size inb_S1024x32_S1024x32_0_0).PackedRows (EltTy.packing .bf16)
  inb_S256x128_S256x128_0_0 : ∀ a, (![0, 0] : Fin 2 → Nat) a + S256x128.size a ≤ S256x128.size a
  h_S256x128 : 0 < S256x128.numel
  broadcasts_S1x32_S256x32 : S1x32.Broadcasts S256x32
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  reduces_S256x8192_S256 : S256x8192.Reduces [1] S256
  shapeCasts_S256_S256x1 : S256.ShapeCasts S256x1
  broadcasts_S256x1_S256x8192 : S256x1.Broadcasts S256x8192
  broadcasts_S256x1_S256x32 : S256x1.Broadcasts S256x32
  reduces_S256x32_S256 : S256x32.Reduces [1] S256
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  dot_S1024x128_S128x32_S1024x32_1_0_0_1_n_n_wf : DotDims.WF S1024x128 S128x32 S1024x32 [1] [0] [0] [1] [] []
  dot_S256x128_S128x32_S256x32_1_0_0_1_n_n_wf : DotDims.WF S256x128 S128x32 S256x32 [1] [0] [0] [1] [] []
  dot_S256x32_S32x8192_S256x8192_1_0_0_1_n_n_wf : DotDims.WF S256x32 S32x8192 S256x8192 [1] [0] [0] [1] [] []
  dot_S256x8192_S8192x32_S256x32_1_0_0_1_n_n_wf : DotDims.WF S256x8192 S8192x32 S256x32 [1] [0] [0] [1] [] []
  dot_S256x32_S32x128_S256x128_1_0_0_1_n_n_wf : DotDims.WF S256x32 S32x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x1024.size a ≤ S32x8192.size a
  hwx0_5 : ∀ i : grid0.Coords, EltTy.bits .bf16 = 32 ∨ (Rect.block (s := S32x8192) S32x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x32.size a ≤ S8192x32.size a
  hwx0_6 : ∀ i : grid0.Coords, EltTy.bits .bf16 = 32 ∨ (Rect.block (s := S8192x32) S1024x32.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S8192x128.size a
  hwx1_0 : ∀ i : grid1.Coords, EltTy.bits .f32 = 32 ∨ (Rect.block (s := S8192x128) S256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x32.size a ≤ S128x32.size a
  hwx1_1 : ∀ i : grid1.Coords, EltTy.bits .f32 = 32 ∨ (Rect.block (s := S128x32) S128x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x8192.size a ≤ S32x8192.size a
  hwx1_3 : ∀ i : grid1.Coords, EltTy.bits .bf16 = 32 ∨ (Rect.block (s := S32x8192) S32x8192.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8192x32.size a ≤ S8192x32.size a
  hwx1_4 : ∀ i : grid1.Coords, EltTy.bits .bf16 = 32 ∨ (Rect.block (s := S8192x32) S8192x32.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32.size a ≤ S32.size a
  hwx1_5 : ∀ i : grid1.Coords, EltTy.bits .f32 = 32 ∨ (Rect.block (s := S32) S32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x128.size a ≤ S32x128.size a
  hwx1_7 : ∀ i : grid1.Coords, EltTy.bits .f32 = 32 ∨ (Rect.block (s := S32x128) S32x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x128.size a ≤ S8192x128.size a
  hwx1_9 : ∀ i : grid1.Coords, EltTy.bits .f32 = 32 ∨ (Rect.block (s := S8192x128) S256x128.size (cc1_transform_9 i) (hinb1_9 i)).WholeWords (EltTy.packing .f32)

variable [Facts₀]

def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf
def dot_S256x128_S128x32_S256x32_1_0_0_1_n_n : DotDims S256x128 S128x32 S256x32 where
  lhsContracting := [1]
  rhsContracting := [0]
  lhsNonContracting := [0]
  rhsNonContracting := [1]
  lhsBatch := []
  rhsBatch := []
  wf := dot_S256x128_S128x32_S256x32_1_0_0_1_n_n_wf
def dot_S256x32_S32x8192_S256x8192_1_0_0_1_n_n : DotDims S256x32 S32x8192 S256x8192 where
  lhsContracting := [1]
  rhsContracting := [0]
  lhsNonContracting := [0]
  rhsNonContracting := [1]
  lhsBatch := []
  rhsBatch := []
  wf := dot_S256x32_S32x8192_S256x8192_1_0_0_1_n_n_wf
def dot_S256x8192_S8192x32_S256x32_1_0_0_1_n_n : DotDims S256x8192 S8192x32 S256x32 where
  lhsContracting := [1]
  rhsContracting := [0]
  lhsNonContracting := [0]
  rhsNonContracting := [1]
  lhsBatch := []
  rhsBatch := []
  wf := dot_S256x8192_S8192x32_S256x32_1_0_0_1_n_n_wf
def dot_S256x32_S32x128_S256x128_1_0_0_1_n_n : DotDims S256x32 S32x128 S256x128 where
  lhsContracting := [1]
  rhsContracting := [0]
  lhsNonContracting := [0]
  rhsNonContracting := [1]
  lhsBatch := []
  rhsBatch := []
  wf := dot_S256x32_S32x128_S256x128_1_0_0_1_n_n_wf

abbrev win0_0 : Pipeline.Window sig grid0 :=
  Pipeline.Window.ofSpec (Memref.whole main_arg1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S32x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1024x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S32x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S8192x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S32x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v1) S256x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S8192x128 : Shape := ⟨2, ![8192, 128]⟩
abbrev S128x32 : Shape := ⟨2, ![128, 32]⟩
abbrev S32 : Shape := ⟨1, ![32]⟩
abbrev S32x128 : Shape := ⟨2, ![32, 128]⟩
abbrev S128 : Shape := ⟨1, ![128]⟩
abbrev S8192x32 : Shape := ⟨2, ![8192, 32]⟩
abbrev S1x32 : Shape := ⟨2, ![1, 32]⟩
abbrev S32x8192 : Shape := ⟨2, ![32, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S128x32, .f32⟩
  | .hbm, ⟨3, _⟩ => ⟨S32, .f32⟩
  | .hbm, ⟨4, _⟩ => ⟨S128x32, .f32⟩
  | .hbm, ⟨5, _⟩ => ⟨S32, .f32⟩
  | .hbm, ⟨6, _⟩ => ⟨S128x32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32x128, .f32⟩
  | .hbm, ⟨11, _⟩ => ⟨S128, .f32⟩
  | .hbm, ⟨12, _⟩ => ⟨S8192x32, .f32⟩
  | .hbm, ⟨13, _⟩ => ⟨S1x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S1x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S32x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S8192x32, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x32, .f32⟩
  | .hbm, ⟨48, _⟩ => ⟨S8192x32, .f32⟩
  | .hbm, ⟨49, _⟩ => ⟨S8192x32, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x32, .f32⟩
  | .hbm, ⟨57, _⟩ => ⟨S8192x32, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x32, .f32⟩
  | .hbm, ⟨63, _⟩ => ⟨S8192x32, .f32⟩
  | .hbm, ⟨64, _⟩ => ⟨S1x32, .f32⟩
  | .hbm, ⟨65, _⟩ => ⟨S8192x32, .f32⟩
  | .hbm, ⟨66, _⟩ => ⟨S8192x32, .f32⟩
  | .hbm, ⟨67, _⟩ => ⟨S1x32, .f32⟩
  | .hbm, ⟨68, _⟩ => ⟨S8192x32, .f32⟩
  | .hbm, ⟨69, _⟩ => ⟨S8192x32, .f32⟩
  | .hbm, ⟨70, _⟩ => ⟨S8192x128, .f32⟩
  | .hbm, ⟨71, _⟩ => ⟨S1x128, .f32⟩
  | .hbm, ⟨72, _⟩ => ⟨S8192x128, .f32⟩
  | .hbm, ⟨73, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  transposes_S8192x32_S32x8192_1_0 : S8192x32.Transposes [1, 0] S32x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  reducesTo_S8192x32_S8192_d1 : S8192x32.ReducesTo [1] S8192
  bcast_S_S8192x1 : S_.BroadcastsInDim S8192x1 (![] : Fin 0 → Fin S8192x1.rank)
  bcast_S8192x1_S8192x32_0_1 : S8192x1.BroadcastsInDim S8192x32 (![0, 1] : Fin 2 → Fin S8192x32.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x128_S128x32_S8192x32_1_0_0_1_n_n_wf : DotDims.WF S8192x128 S128x32 S8192x32 [1] [0] [0] [1] [] []
  dot_S8192x32_S32x8192_S8192x8192_1_0_0_1_n_n_wf : DotDims.WF S8192x32 S32x8192 S8192x8192 [1] [0] [0] [1] [] []
  dot_S8192x8192_S8192x32_S8192x32_1_0_0_1_n_n_wf : DotDims.WF S8192x8192 S8192x32 S8192x32 [1] [0] [0] [1] [] []
  dot_S8192x32_S32x128_S8192x128_1_0_0_1_n_n_wf : DotDims.WF S8192x32 S32x128 S8192x128 [1] [0] [0] [1] [] []

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x32_S32x128_S8192x128_1_0_0_1_n_n : DotDims S8192x32 S32x128 S8192x128 where
  lhsContracting := [1]
  rhsContracting := [0]
  lhsNonContracting := [0]
  rhsNonContracting := [1]
  lhsBatch := []
  rhsBatch := []
  wf := dot_S8192x32_S32x128_S8192x128_1_0_0_1_n_n_wf

class Facts : Prop extends Facts₀ where

variable [Facts]
-- ==== Proof.Spec.lean ====
/-
  Cross-attention of 8192 query rows over 8192 key rows, followed by a layer normalisation and a linear map,
  written one query row at a time over the extended reals.

  A row x of 128 entries is projected to 32 entries, x W + b.  A query's score against key j is the inner
  product of the two projected rows.  The softmax weights of a query are exp (s j - max s); their sum is the
  normaliser.  The value rows are averaged with these weights in one of two ways: the weighted sum is divided by the
  normaliser afterwards (fusedK), or each weight is divided by the normaliser before it multiplies its value row
  (fusedR).  The two agree when the weights and the value entries are real numbers and the normaliser is a
  non-zero real; on the extended reals they need not, since a product does not distribute over a sum at the infinities.
  The averaged row of 32 entries is then normalised (mean, variance, reciprocal square root, scale and shift) and
  mapped to 128 entries.
-/
import Idealize.ShloMosaic.PureOps.Ideal
import Idealize.ShloMosaic.Lib.ValueIdx
import Mathlib.Algebra.BigOperators.Fin

noncomputable section

namespace Cert.Attn

open Idealize.ShloMosaic Idealize.ShloMosaic.ValueIdx
open scoped BigOperators

/-- a matrix array read at its row and column -/
def m2 {r c : ℕ} (A : (⟨2, ![r, c]⟩ : Shape).Idx → EReal) : Fin r → Fin c → EReal := fun i j => A (ix2 i j)

/-- a vector array read at its entry -/
def m1 {n : ℕ} (A : (⟨1, ![n]⟩ : Shape).Idx → EReal) : Fin n → EReal := fun i => A (ix1 i)

/-- the word of minus infinity: what a row maximum starts from -/
def negInf : EReal := Ideal.ofBits .f32 0xFF800000#32
/-- the word of 32, the length of an averaged row -/
def c32 : EReal := Ideal.ofBits .f32 0x42000000#32
/-- the word the variance is padded with before its reciprocal square root -/
def eps : EReal := Ideal.ofBits .f32 0x3727C5AC#32

/-- minus infinity is the bottom of the extended reals -/
theorem negInf_eq : negInf = ⊥ := by
  simp [negInf, Ideal.ofBits, Ideal.ieee]

/-- a row of 128 entries projected to 32: x W + b -/
def proj (x : Fin 128 → EReal) (W : Fin 128 → Fin 32 → EReal) (b : Fin 32 → EReal) : Fin 32 → EReal :=
  fun d => (∑ a : Fin 128, x a * W a d) + b d

/-- a projected query row against every projected key row -/
def score (q : Fin 32 → EReal) (k : Fin 8192 → Fin 32 → EReal) : Fin 8192 → EReal :=
  fun j => ∑ d : Fin 32, q d * k j d

/-- the largest score of a query, from minus infinity -/
def rowMax (s : Fin 8192 → EReal) : EReal :=
  (Finset.univ : Finset (Fin 8192)).fold max negInf s

/-- the unnormalised softmax weight of key j -/
def wexp (s : Fin 8192 → EReal) (j : Fin 8192) : EReal := Ideal.exp (s j - rowMax s)

/-- the normaliser: the sum of the weights -/
def wsum (s : Fin 8192 → EReal) : EReal := ∑ j : Fin 8192, wexp s j

/-- the weighted sum of the value rows, divided by the normaliser afterwards -/
def fusedK (s : Fin 8192 → EReal) (v : Fin 8192 → Fin 32 → EReal) : Fin 32 → EReal :=
  fun d => Ideal.div (∑ j : Fin 8192, wexp s j * v j d) (wsum s)

/-- each weight divided by the normaliser first, then the weighted sum of the value rows -/
def fusedR (s : Fin 8192 → EReal) (v : Fin 8192 → Fin 32 → EReal) : Fin 32 → EReal :=
  fun d => ∑ j : Fin 8192, Ideal.div (wexp s j) (wsum s) * v j d

/-- the mean of a row of 32 -/
def mean (f : Fin 32 → EReal) : EReal := Ideal.div (∑ d : Fin 32, f d) c32

/-- the variance of a row of 32 about its mean -/
def var (f : Fin 32 → EReal) : EReal :=
  Ideal.div (∑ d : Fin 32, (f d - mean f) * (f d - mean f)) c32

/-- the normalised row, scaled and shifted -/
def normed (f gamma beta : Fin 32 → EReal) : Fin 32 → EReal :=
  fun d => (f d - mean f) * Ideal.rsqrt (var f + eps) * gamma d + beta d

/-- layer normalisation of a row of 32 and the linear map to 128 -/
def lnTail (f gamma beta : Fin 32 → EReal) (Wo : Fin 32 → Fin 128 → EReal) (bo : Fin 128 → EReal) :
    Fin 128 → EReal :=
  fun n => (∑ d : Fin 32, normed f gamma beta d * Wo d n) + bo n

/-- the scores of query row i -/
def scores (x1 x2 : Fin 8192 → Fin 128 → EReal) (Wq : Fin 128 → Fin 32 → EReal) (bq : Fin 32 → EReal)
    (Wk : Fin 128 → Fin 32 → EReal) (bk : Fin 32 → EReal) (i : Fin 8192) : Fin 8192 → EReal :=
  score (proj (x1 i) Wq bq) (fun j => proj (x2 j) Wk bk)

/-- the whole computation with the normaliser divided out AFTER the weighted sum, at row i and column n -/
def outK (x1 x2 : Fin 8192 → Fin 128 → EReal) (Wq : Fin 128 → Fin 32 → EReal) (bq : Fin 32 → EReal)
    (Wk : Fin 128 → Fin 32 → EReal) (bk : Fin 32 → EReal) (Wv : Fin 128 → Fin 32 → EReal) (bv : Fin 32 → EReal)
    (gamma beta : Fin 32 → EReal) (Wo : Fin 32 → Fin 128 → EReal) (bo : Fin 128 → EReal)
    (i : Fin 8192) (n : Fin 128) : EReal :=
  lnTail (fusedK (scores x1 x2 Wq bq Wk bk i) (fun j => proj (x2 j) Wv bv)) gamma beta Wo bo n

/-- the whole computation with each weight divided by the normaliser BEFORE the weighted sum -/
def outR (x1 x2 : Fin 8192 → Fin 128 → EReal) (Wq : Fin 128 → Fin 32 → EReal) (bq : Fin 32 → EReal)
    (Wk : Fin 128 → Fin 32 → EReal) (bk : Fin 32 → EReal) (Wv : Fin 128 → Fin 32 → EReal) (bv : Fin 32 → EReal)
    (gamma beta : Fin 32 → EReal) (Wo : Fin 32 → Fin 128 → EReal) (bo : Fin 128 → EReal)
    (i : Fin 8192) (n : Fin 128) : EReal :=
  lnTail (fusedR (scores x1 x2 Wq bq Wk bk i) (fun j => proj (x2 j) Wv bv)) gamma beta Wo bo n

end Cert.Attn

end
-- ==== Proof.KernelSpec.lean ====
/-
  The three arrays the two launches write, as functions of the arrays they read.

  The first launch writes the projected keys TRANSPOSED (entry (d, j) is key row j's d-th projected entry) and the
  projected values (entry (j, d)).  The second launch writes, at (i, n), the attention of query row i over those
  two arrays, normalised and mapped to 128 entries, the normaliser divided out after the weighted sum.
-/
import proofs.«413681_j1288490188988_3_alg».proof.KernelIdeal
import proofs.«413681_j1288490188988_3_alg».proof.Proof.Spec

noncomputable section

namespace Cert.KernelIdeal.ASpec

open Cert.KernelIdeal Idealize.ShloMosaic Idealize.ShloMosaic.ValueIdx Cert.Attn

/-- the transposed projected keys -/
def ktArr (x2 : S8192x128.Idx → EReal) (wk : S128x32.Idx → EReal) (bk : S32.Idx → EReal) : S32x8192.Idx → EReal :=
  fun idx => proj (m2 x2 ⟨(idx 1).val, (idx 1).isLt⟩) (m2 wk) (m1 bk) ⟨(idx 0).val, (idx 0).isLt⟩

/-- the projected values -/
def vArr (x2 : S8192x128.Idx → EReal) (wv : S128x32.Idx → EReal) (bv : S32.Idx → EReal) : S8192x32.Idx → EReal :=
  fun idx => proj (m2 x2 ⟨(idx 0).val, (idx 0).isLt⟩) (m2 wv) (m1 bv) ⟨(idx 1).val, (idx 1).isLt⟩

/-- one query row x (128 entries) against the transposed keys kt and the values v: the row of 128 results -/
def attnRow (x : Fin 128 → EReal) (wq : S128x32.Idx → EReal) (bq : S32.Idx → EReal)
    (kt : S32x8192.Idx → EReal) (v : S8192x32.Idx → EReal) (g b : S32.Idx → EReal)
    (wo : S32x128.Idx → EReal) (bo : S128.Idx → EReal) : Fin 128 → EReal :=
  lnTail (fusedK (score (proj x (m2 wq) (m1 bq)) (fun j d => kt (ix2 d j))) (fun j d => v (ix2 j d)))
    (m1 g) (m1 b) (m2 wo) (m1 bo)

/-- the second launch's result array -/
def outArr (x1 : S8192x128.Idx → EReal) (wq : S128x32.Idx → EReal) (bq : S32.Idx → EReal)
    (kt : S32x8192.Idx → EReal) (v : S8192x32.Idx → EReal) (g b : S32.Idx → EReal)
    (wo : S32x128.Idx → EReal) (bo : S128.Idx → EReal) : S8192x128.Idx → EReal :=
  fun idx => attnRow (m2 x1 ⟨(idx 0).val, (idx 0).isLt⟩) wq bq kt v g b wo bo ⟨(idx 1).val, (idx 1).isLt⟩

/-- over the first launch's arrays the second launch's result is the whole computation of the specification -/
theorem outArr_kv (x1 x2 : S8192x128.Idx → EReal) (wq : S128x32.Idx → EReal) (bq : S32.Idx → EReal)
    (wk : S128x32.Idx → EReal) (bk : S32.Idx → EReal) (wv : S128x32.Idx → EReal) (bv : S32.Idx → EReal)
    (g b : S32.Idx → EReal) (wo : S32x128.Idx → EReal) (bo : S128.Idx → EReal) (i : Fin 8192) (n : Fin 128) :
    outArr x1 wq bq (ktArr x2 wk bk) (vArr x2 wv bv) g b wo bo (ix2 i n)
      = outK (m2 x1) (m2 x2) (m2 wq) (m1 bq) (m2 wk) (m1 bk) (m2 wv) (m1 bv) (m1 g) (m1 b) (m2 wo) (m1 bo) i n := rfl

end Cert.KernelIdeal.ASpec

end
-- ==== Proof.KvValue.lean ====
/-
  The first launch's two output arrays as whole-array functions of the arrays the launch reads.

  The launch walks eight grid points.  At point t it reads rows 1024 t … 1024 t + 1023 of the key rows (a 1024×128 block),
  the two 128×32 weights and the two biases whole, and writes back a 32×1024 block of the transposed projected keys
  (columns 1024 t …) and a 1024×32 block of the projected values (rows 1024 t …).  The body's arithmetic on a block is
  the block times a weight, summed over the 128 shared entries from zero, plus the bias repeated down the rows; the
  keys' result is then transposed; every change of number format is the identity on the extended reals.  So entry
  (r, d) of the values' block is row r of the block projected, entry d, and entry (d, r) of the keys' block likewise.
  A block's entry sits in the array at block index × block size + its own coordinate on each axis, so what a point
  writes back is its block of the whole-array function; the eight blocks fill each array (row or column j lies in the
  block of point j / 1024), hence each array ends holding that function.
-/
import proofs.«413681_j1288490188988_3_alg».proof.Proof.Gen.KernelIdeal.Frame
import proofs.«413681_j1288490188988_3_alg».proof.Proof.KernelSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KvValue

open Cert.KernelIdeal Cert.KernelIdeal.Gen Cert.KernelIdeal.ASpec Idealize.ShloMosaic Idealize.ShloMosaic.TcCoe Idealize.SL.Sem
open Idealize.ShloMosaic.ValueIdx Cert.Attn
open Idealize.ShloMosaic.Pipeline (Dat)

variable (V : (c : Dev nD) → (b : Ref sig .tc) → Buf (Elt Ideal) ((c : Thread nD τ).loc b))

/-! ## The body's arithmetic at an index -/

/-- The left operand's row is the result's row … -/
theorem lhs_axis0 (i : S1024x32.Idx) (q : dot_S1024x128_S128x32_S1024x32_1_0_0_1_n_n.contr.Idx) :
    (dot_S1024x128_S128x32_S1024x32_1_0_0_1_n_n.lhsIdx i q 0).val = (i 0).val := by
  unfold DotDims.lhsIdx
  rw [dif_neg (show ¬(0 : Fin S1024x128.rank) ∈ dot_S1024x128_S128x32_S1024x32_1_0_0_1_n_n.lhsBatch by decide), dif_pos (show (0 : Fin S1024x128.rank) ∈ dot_S1024x128_S128x32_S1024x32_1_0_0_1_n_n.lhsNonContracting by decide)]
  rfl
/-- … and its column is the summation index. -/
theorem lhs_axis1 (i : S1024x32.Idx) (q : dot_S1024x128_S128x32_S1024x32_1_0_0_1_n_n.contr.Idx) :
    (dot_S1024x128_S128x32_S1024x32_1_0_0_1_n_n.lhsIdx i q 1).val = (q ⟨0, by decide⟩).val :=
  dot_S1024x128_S128x32_S1024x32_1_0_0_1_n_n.lhsIdx_val_of_single rfl i q
/-- The right operand's row is the summation index … -/
theorem rhs_axis0 (i : S1024x32.Idx) (q : dot_S1024x128_S128x32_S1024x32_1_0_0_1_n_n.contr.Idx) :
    (dot_S1024x128_S128x32_S1024x32_1_0_0_1_n_n.rhsIdx i q 0).val = (q ⟨0, by decide⟩).val :=
  dot_S1024x128_S128x32_S1024x32_1_0_0_1_n_n.rhsIdx_val_of_single rfl i q
/-- … and its column is the result's column. -/
theorem rhs_axis1 (i : S1024x32.Idx) (q : dot_S1024x128_S128x32_S1024x32_1_0_0_1_n_n.contr.Idx) :
    (dot_S1024x128_S128x32_S1024x32_1_0_0_1_n_n.rhsIdx i q 1).val = (i 1).val := by
  unfold DotDims.rhsIdx
  rw [dif_neg (show ¬(1 : Fin S128x32.rank) ∈ dot_S1024x128_S128x32_S1024x32_1_0_0_1_n_n.rhsBatch by decide), dif_pos (show (1 : Fin S128x32.rank) ∈ dot_S1024x128_S128x32_S1024x32_1_0_0_1_n_n.rhsNonContracting by decide)]
  rfl

/-- The block's product with a weight, started from zero, at row r and column d: the sum over the 128 shared entries. -/
theorem blockProduct_at {φ₁ φ₂ : FTy} (x : FVec Ideal S1024x128 φ₁) (w : FVec Ideal S128x32 φ₂) (r : Fin 1024) (d : Fin 32) :
    matmul dot_S1024x128_S128x32_S1024x32_1_0_0_1_n_n none x w (constant (F := Ideal) S1024x32 .f32 0x00000000#32) (ix2 r d)
      = ∑ k : Fin 128, x (ix2 r k) * w (ix2 k d) := by
  simp only [matmul]
  rw [Ideal.matmul_constant_zero_apply, ← Equiv.sum_comp (ValueIdx.contrEquiv1 dot_S1024x128_S128x32_S1024x32_1_0_0_1_n_n 128 rfl rfl).symm]
  refine Finset.sum_congr rfl fun k _ => ?_
  have hk := ValueIdx.contrEquiv1_symm_val dot_S1024x128_S128x32_S1024x32_1_0_0_1_n_n 128 rfl rfl k
  have el : dot_S1024x128_S128x32_S1024x32_1_0_0_1_n_n.lhsIdx (ix2 r d) ((ValueIdx.contrEquiv1 dot_S1024x128_S128x32_S1024x32_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S1024x128_S128x32_S1024x32_1_0_0_1_n_n.rhsIdx (ix2 r d) ((ValueIdx.contrEquiv1 dot_S1024x128_S128x32_S1024x32_1_0_0_1_n_n 128 rfl rfl).symm k) = ix2 k d := funext fun a => Fin.ext (by
    match a with
    | ⟨0, _⟩ => exact (rhs_axis0 _ _).trans hk
    | ⟨1, _⟩ => exact rhs_axis1 _ _)
  rw [el, er]

/-- The bias, cast to one row and repeated down the 1024 rows, at row r and column d is its d-th entry. -/
theorem biasRows_at (b : FVec Ideal S32 .f32) (r : Fin 1024) (d : Fin 32) :
    broadcastTo S1024x32 (shapeCast S1x32 b shapeCasts_S32_S1x32) broadcasts_S1x32_S1024x32 (ix2 r d) = b (ix1 d) := by
  rw [broadcastTo_1b_ab_apply, shapeCast_a_1a_apply]

/-- The values' payload at row r and column d: the block's row r projected, entry d. -/
theorem valuePayload_at (x : FVec Ideal S1024x128 .f32) (w : FVec Ideal S128x32 .f32) (b : FVec Ideal S32 .f32) (r : Fin 1024) (d : Fin 32) :
    k0_pay3 (F := Ideal) x w b (ix2 r d) = proj (m2 x r) (m2 w) (m1 b) d := by
  unfold k0_pay3 k0_pay1
  show matmul dot_S1024x128_S128x32_S1024x32_1_0_0_1_n_n none (truncf .bf16 x bitsLt_bf16_f32) (truncf .bf16 w bitsLt_bf16_f32) (constant (F := Ideal) S1024x32 .f32 0x00000000#32) (ix2 r d)
      + broadcastTo S1024x32 (shapeCast S1x32 b shapeCasts_S32_S1x32) broadcasts_S1x32_S1024x32 (ix2 r d) = _
  rw [blockProduct_at, biasRows_at]
  rfl

/-- The transposed keys' payload at row d and column r: the block's row r projected, entry d. -/
theorem keyPayload_at (x : FVec Ideal S1024x128 .f32) (w : FVec Ideal S128x32 .f32) (b : FVec Ideal S32 .f32) (d : Fin 32) (r : Fin 1024) :
    k0_pay2 (F := Ideal) x w b (ix2 d r) = proj (m2 x r) (m2 w) (m1 b) d := by
  unfold k0_pay2 k0_pay1
  show transpose S32x1024 [1, 0] (addf (matmul dot_S1024x128_S128x32_S1024x32_1_0_0_1_n_n none (truncf .bf16 x bitsLt_bf16_f32) (truncf .bf16 w bitsLt_bf16_f32) (constant (F := Ideal) S1024x32 .f32 0x00000000#32))
      (broadcastTo S1024x32 (shapeCast S1x32 b shapeCasts_S32_S1x32) broadcasts_S1x32_S1024x32)) transposes_S1024x32_p1_0_S32x1024 (ix2 d r) = _
  rw [transpose_ix2_apply]
  show matmul dot_S1024x128_S128x32_S1024x32_1_0_0_1_n_n none (truncf .bf16 x bitsLt_bf16_f32) (truncf .bf16 w bitsLt_bf16_f32) (constant (F := Ideal) S1024x32 .f32 0x00000000#32) (ix2 r d)
      + broadcastTo S1024x32 (shapeCast S1x32 b shapeCasts_S32_S1x32) broadcasts_S1x32_S1024x32 (ix2 r d) = _
  rw [blockProduct_at, biasRows_at]
  rfl

/-! ## The launch's blocks as parts of the arrays -/

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the eight grid points: the key rows move down by one block per point, the projected
    values with them, the transposed keys to the right by one block per point; the weights and biases stay. -/
theorem index_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = t.val
    ∧ win0_6.index t (0 : Fin 2) = t.val ∧ win0_6.index t (1 : Fin 2) = 0 :=
  (by decide +kernel : ∀ t : Fin grid0.N, _)

/-- The key rows' block at point t holds, in its row r, row 1024 t + r of the array. -/
theorem rowsBlock_at (c : Dev nD) (t : Fin cfg0.N) (r : Fin 1024) (k : Fin 128) (R : Fin 8192)
    (hR : R.val = t.val * 1024 + r.val) :
    (iblk0 V c 0 t : Vec Ideal S1024x128 .f32) (ix2 r k) = (V c main_arg1 : S8192x128.Idx → EReal) (ix2 R k) := by
  obtain ⟨e0, e1, -⟩ := index_facts t
  unfold iblk0
  rw [View.read_apply]
  show V c main_arg1 _ = V c main_arg1 _
  congr 1
  funext a
  apply Fin.ext
  match a with
  | ⟨0, _⟩ => show win0_0.index t (0 : Fin 2) * 1024 + 1 * r.val = R.val; omega
  | ⟨1, _⟩ => show win0_0.index t (1 : Fin 2) * 128 + 1 * k.val = k.val; omega

/-- The key weight's block is the whole weight at every point. -/
theorem keyWeight_block (c : Dev nD) (t : Fin cfg0.N) : (iblk0 V c 1 t : Vec Ideal S128x32 .f32) = V c main_arg4 := by
  obtain ⟨-, -, e0, e1, -⟩ := index_facts t
  funext y
  unfold iblk0
  rw [View.read_apply]
  show V c main_arg4 _ = V c main_arg4 y
  congr 1
  funext a
  apply Fin.ext
  match a with
  | ⟨0, _⟩ => show win0_1.index t (0 : Fin 2) * 128 + 1 * (y 0).val = (y 0).val; omega
  | ⟨1, _⟩ => show win0_1.index t (1 : Fin 2) * 32 + 1 * (y 1).val = (y 1).val; omega

/-- The key bias's block is the whole bias at every point. -/
theorem keyBias_block (c : Dev nD) (t : Fin cfg0.N) : (iblk0 V c 2 t : Vec Ideal S32 .f32) = V c main_arg5 := by
  obtain ⟨-, -, -, -, e0, -⟩ := index_facts t
  funext y
  unfold iblk0
  rw [View.read_apply]
  show V c main_arg5 _ = V c main_arg5 y
  congr 1
  funext a
  apply Fin.ext
  match a with
  | ⟨0, _⟩ => show win0_2.index t (0 : Fin 1) * 32 + 1 * (y 0).val = (y 0).val; omega

/-- The value weight's block is the whole weight at every point. -/
theorem valueWeight_block (c : Dev nD) (t : Fin cfg0.N) : (iblk0 V c 3 t : Vec Ideal S128x32 .f32) = V c main_arg6 := by
  obtain ⟨-, -, -, -, -, e0, e1, -⟩ := index_facts t
  funext y
  unfold iblk0
  rw [View.read_apply]
  show V c main_arg6 _ = V c main_arg6 y
  congr 1
  funext a
  apply Fin.ext
  match a with
  | ⟨0, _⟩ => show win0_3.index t (0 : Fin 2) * 128 + 1 * (y 0).val = (y 0).val; omega
  | ⟨1, _⟩ => show win0_3.index t (1 : Fin 2) * 32 + 1 * (y 1).val = (y 1).val; omega

/-- The value bias's block is the whole bias at every point. -/
theorem valueBias_block (c : Dev nD) (t : Fin cfg0.N) : (iblk0 V c 4 t : Vec Ideal S32 .f32) = V c main_arg7 := by
  obtain ⟨-, -, -, -, -, -, -, e0, -⟩ := index_facts t
  funext y
  unfold iblk0
  rw [View.read_apply]
  show V c main_arg7 _ = V c main_arg7 y
  congr 1
  funext a
  apply Fin.ext
  match a with
  | ⟨0, _⟩ => show win0_4.index t (0 : Fin 1) * 32 + 1 * (y 0).val = (y 0).val; omega

/-! ## What a point writes back is a block of the whole-array function -/

/-- A block x holding rows 1024 q … 1024 q + 1023 of the key rows X: the values' payload over it, at the block's index j,
    is the projected values at the array index i that j sits at. -/
theorem valuePayload_read (X : S8192x128.Idx → EReal) (Wv : S128x32.Idx → EReal) (bv : S32.Idx → EReal)
    (x : FVec Ideal S1024x128 .f32) (w : FVec Ideal S128x32 .f32) (b : FVec Ideal S32 .f32) (q : ℕ)
    (hx : ∀ (r : Fin 1024) (k : Fin 128) (R : Fin 8192), R.val = q * 1024 + r.val → x (ix2 r k) = X (ix2 R k))
    (hw : w = Wv) (hb : b = bv)
    (j : S1024x32.Idx) (i : S8192x32.Idx) (h0 : (i 0).val = q * 1024 + (j 0).val) (h1 : (i 1).val = (j 1).val) :
    k0_pay3 (F := Ideal) x w b j = vArr X Wv bv i := by
  subst hw hb
  obtain ⟨r, d, rfl⟩ : ∃ (r : Fin 1024) (d : Fin 32), j = ix2 r d := ⟨j 0, j 1, eq_ix2 j⟩
  rw [valuePayload_at]
  have hd : (⟨(i 1).val, (i 1).isLt⟩ : Fin 32) = d := Fin.ext h1
  have hrow : m2 x r = m2 X ⟨(i 0).val, (i 0).isLt⟩ := funext fun k => hx r k ⟨(i 0).val, (i 0).isLt⟩ h0
  show proj (m2 x r) (m2 w) (m1 b) d = proj (m2 X ⟨(i 0).val, (i 0).isLt⟩) (m2 w) (m1 b) ⟨(i 1).val, (i 1).isLt⟩
  rw [hrow, hd]

/-- The same for the transposed keys: the block's index j = (d, r) sits at the array index i = (d, 1024 q + r). -/
theorem keyPayload_read (X : S8192x128.Idx → EReal) (Wk : S128x32.Idx → EReal) (bk : S32.Idx → EReal)
    (x : FVec Ideal S1024x128 .f32) (w : FVec Ideal S128x32 .f32) (b : FVec Ideal S32 .f32) (q : ℕ)
    (hx : ∀ (r : Fin 1024) (k : Fin 128) (R : Fin 8192), R.val = q * 1024 + r.val → x (ix2 r k) = X (ix2 R k))
    (hw : w = Wk) (hb : b = bk)
    (j : S32x1024.Idx) (i : S32x8192.Idx) (h0 : (i 0).val = (j 0).val) (h1 : (i 1).val = q * 1024 + (j 1).val) :
    k0_pay2 (F := Ideal) x w b j = ktArr X Wk bk i := by
  subst hw hb
  obtain ⟨d, r, rfl⟩ : ∃ (d : Fin 32) (r : Fin 1024), j = ix2 d r := ⟨j 0, j 1, eq_ix2 j⟩
  rw [keyPayload_at]
  have hd : (⟨(i 0).val, (i 0).isLt⟩ : Fin 32) = d := Fin.ext h0
  have hrow : m2 x r = m2 X ⟨(i 1).val, (i 1).isLt⟩ := funext fun k => hx r k ⟨(i 1).val, (i 1).isLt⟩ h1
  show proj (m2 x r) (m2 w) (m1 b) d = proj (m2 X ⟨(i 1).val, (i 1).isLt⟩) (m2 w) (m1 b) ⟨(i 0).val, (i 0).isLt⟩
  rw [hrow, hd]

/-- What point t writes back to the projected values is block t of the whole-array function. -/
theorem values_flushed (c : Dev nD) (t : Fin cfg0.N) :
    (dat0 (F := Ideal) V c).flushed 6 t
      = ((cfg0.win 6).blk t).view.read (Elt Ideal) (vArr (V c main_arg1) (V c main_arg6) (V c main_arg7)) := by
  show (cfg0.win 6).cut (grid0.coords t) ((dat0 V c).after 6 t) = _
  rw [after0_6]
  unfold out0_6
  rw [View.canon_unit_zero zeros2]
  simp only [View.ld_unit_zero (S := S1024x128) zeros2, View.ld_unit_zero (S := S128x32) zeros2, View.ld_unit_zero (S := S32) zeros1]
  obtain ⟨-, -, -, -, -, -, -, -, -, -, e0, e1⟩ := index_facts t
  funext j
  show k0_pay3 (F := Ideal) (iblk0 V c 0 t) (iblk0 V c 3 t) (iblk0 V c 4 t) j
      = vArr (V c main_arg1) (V c main_arg6) (V c main_arg7) (((cfg0.win 6).blk t).view.emb j)
  refine valuePayload_read (V c main_arg1) (V c main_arg6) (V c main_arg7) (iblk0 V c 0 t) (iblk0 V c 3 t) (iblk0 V c 4 t) t.val
    (fun r k R hR => rowsBlock_at V c t r k R hR) (valueWeight_block V c t) (valueBias_block V c t) j (((cfg0.win 6).blk t).view.emb j) ?_ ?_
  · show win0_6.index t (0 : Fin 2) * 1024 + 1 * (j 0).val = t.val * 1024 + (j 0).val; omega
  · show win0_6.index t (1 : Fin 2) * 32 + 1 * (j 1).val = (j 1).val; omega

/-- What point t writes back to the transposed keys is block t of the whole-array function. -/
theorem keys_flushed (c : Dev nD) (t : Fin cfg0.N) :
    (dat0 (F := Ideal) V c).flushed 5 t
      = ((cfg0.win 5).blk t).view.read (Elt Ideal) (ktArr (V c main_arg1) (V c main_arg4) (V c main_arg5)) := by
  show (cfg0.win 5).cut (grid0.coords t) ((dat0 V c).after 5 t) = _
  rw [after0_5]
  unfold out0_5
  rw [View.canon_unit_zero zeros2]
  simp only [View.ld_unit_zero (S := S1024x128) zeros2, View.ld_unit_zero (S := S128x32) zeros2, View.ld_unit_zero (S := S32) zeros1]
  obtain ⟨-, -, -, -, -, -, -, -, e0, e1, -⟩ := index_facts t
  funext j
  show k0_pay2 (F := Ideal) (iblk0 V c 0 t) (iblk0 V c 1 t) (iblk0 V c 2 t) j
      = ktArr (V c main_arg1) (V c main_arg4) (V c main_arg5) (((cfg0.win 5).blk t).view.emb j)
  refine keyPayload_read (V c main_arg1) (V c main_arg4) (V c main_arg5) (iblk0 V c 0 t) (iblk0 V c 1 t) (iblk0 V c 2 t) t.val
    (fun r k R hR => rowsBlock_at V c t r k R hR) (keyWeight_block V c t) (keyBias_block V c t) j (((cfg0.win 5).blk t).view.emb j) ?_ ?_
  · show win0_5.index t (0 : Fin 2) * 32 + 1 * (j 0).val = (j 0).val; omega
  · show win0_5.index t (1 : Fin 2) * 1024 + 1 * (j 1).val = t.val * 1024 + (j 1).val; omega

/-! ## The blocks fill the arrays -/

/-- An index of the projected values is in point t's block iff each coordinate is in the block's range on its axis. -/
theorem mem_valuesBlock (t : Fin cfg0.N) (i : S8192x32.Idx) :
    i ∈ ((cfg0.win 6).blk t).view.set ↔ ∀ a : Fin 2, win0_6.index t a * S1024x32.size a ≤ (i a).val ∧ (i a).val < win0_6.index t a * S1024x32.size a + S1024x32.size a := by
  show i ∈ ((View.whole main_v0_1).slice (win0_6.rect t)).set ↔ _
  rw [View.set_slice_whole, Rect.mem_set_unit]
  exact Iff.rfl

/-- An index of the transposed keys is in point t's block iff each coordinate is in the block's range on its axis. -/
theorem mem_keysBlock (t : Fin cfg0.N) (i : S32x8192.Idx) :
    i ∈ ((cfg0.win 5).blk t).view.set ↔ ∀ a : Fin 2, win0_5.index t a * S32x1024.size a ≤ (i a).val ∧ (i a).val < win0_5.index t a * S32x1024.size a + S32x1024.size a := by
  show i ∈ ((View.whole main_v0_0).slice (win0_5.rect t)).set ↔ _
  rw [View.set_slice_whole, Rect.mem_set_unit]
  exact Iff.rfl

/-- Row j of the projected values is in the block of point j / 1024. -/
theorem values_cover (i : S8192x32.Idx) :
    ∃ t : Fin cfg0.N, (cfg0.win 6).flush t = true ∧ i ∈ ((cfg0.win 6).blk t).view.set := by
  have hi0 : (i 0).val < 8192 := (i 0).isLt
  have hi1 : (i 1).val < 32 := (i 1).isLt
  have hN : grid0.N = 8 := N_0
  obtain ⟨t, ht⟩ : ∃ t : Fin cfg0.N, t.val = (i 0).val / 1024 :=
    ⟨⟨(i 0).val / 1024, by show (i 0).val / 1024 < grid0.N; rw [hN]; omega⟩, rfl⟩
  obtain ⟨-, -, -, -, -, -, -, -, -, -, e0, e1⟩ := index_facts t
  refine ⟨t, flush0_6 t, ?_⟩
  rw [mem_valuesBlock]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 32 ≤ (i 1).val ∧ (i 1).val < win0_6.index t (1 : Fin 2) * 32 + 32; omega

/-- Column j of the transposed keys is in the block of point j / 1024. -/
theorem keys_cover (i : S32x8192.Idx) :
    ∃ t : Fin cfg0.N, (cfg0.win 5).flush t = true ∧ i ∈ ((cfg0.win 5).blk t).view.set := by
  have hi0 : (i 0).val < 32 := (i 0).isLt
  have hi1 : (i 1).val < 8192 := (i 1).isLt
  have hN : grid0.N = 8 := N_0
  obtain ⟨t, ht⟩ : ∃ t : Fin cfg0.N, t.val = (i 1).val / 1024 :=
    ⟨⟨(i 1).val / 1024, by show (i 1).val / 1024 < grid0.N; rw [hN]; omega⟩, rfl⟩
  obtain ⟨-, -, -, -, -, -, -, -, e0, e1, -⟩ := index_facts t
  refine ⟨t, flush0_5 t, ?_⟩
  rw [mem_keysBlock]
  intro a
  match a with
  | ⟨0, _⟩ => show win0_5.index t (0 : Fin 2) * 32 ≤ (i 0).val ∧ (i 0).val < win0_5.index t (0 : Fin 2) * 32 + 32; omega
  | ⟨1, _⟩ => show win0_5.index t (1 : Fin 2) * 1024 ≤ (i 1).val ∧ (i 1).val < win0_5.index t (1 : Fin 2) * 1024 + 1024; omega

/-! ## The two arrays after the launch -/

theorem kt_final (c : Dev nD) :
    (dat0 (F := Ideal) V c).arrAt 5 cfg0.N = ktArr (V c main_arg1) (V c main_arg4) (V c main_arg5) :=
  (dat0 (F := Ideal) V c).arrAt_eq_of_cover 5 (ktArr (V c main_arg1) (V c main_arg4) (V c main_arg5))
    (fun t _ => keys_flushed V c t) keys_cover

theorem v_final (c : Dev nD) :
    (dat0 (F := Ideal) V c).arrAt 6 cfg0.N = vArr (V c main_arg1) (V c main_arg6) (V c main_arg7) :=
  (dat0 (F := Ideal) V c).arrAt_eq_of_cover 6 (vArr (V c main_arg1) (V c main_arg6) (V c main_arg7))
    (fun t _ => values_flushed V c t) values_cover

end Cert.KernelIdeal.KvValue

end
-- ==== Proof.LibColumn.lean ====
/-
  The keepdims COLUMN of a row reduction, read at an index.

  A vector of `a` row results cast to the column `[a, 1]`, and that column broadcast along the rows of an `[a, b]`
  array: at `(p, c)` the broadcast column holds row `p`'s result, whatever the column `c`.
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.AttnFused.lean ====
/-
  The second launch's body up to the attention average, read at one entry.

  A block of 256 query rows is projected to 32 entries a row (x W + b).  Each projected row is multiplied with the
  transposed keys: 8192 scores a row.  A row's scores are shifted by their maximum and exponentiated: the weights; their
  sum is the row's normaliser.  The weights times the value rows, summed over the 8192 keys, divided by the normaliser, is
  the averaged row of 32 entries.  At row r and column d this is the specification's average with the normaliser divided
  out after the weighted sum, of row r's scores.

  The body is cut into its layers — projected queries, scores, row maximum, weights, normaliser, quotient —, each read at
  an entry over an arbitrary array below it, and the layers are then put together.
-/
import proofs.«413681_j1288490188988_3_alg».proof.Proof.Gen.KernelIdeal.Skeleton
import proofs.«413681_j1288490188988_3_alg».proof.Proof.KernelSpec
import proofs.«413681_j1288490188988_3_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttnFused

open Cert.KernelIdeal Cert.KernelIdeal.Gen Cert.KernelIdeal.ASpec Idealize.ShloMosaic Idealize.ShloMosaic.ValueIdx Cert.Attn

/-! ## The three products read at an entry

Each product contracts the first factor's columns with the second factor's rows.  Its entry at (r, c) is a sum over the
contraction's index; that index is its one coordinate k, and the factors' entries met at k are (r, k) and (k, c). -/

/-- The projection's product: the first factor's row is the result's row. -/
private theorem lhs_q_0 (i : S256x32.Idx) (q : dot_S256x128_S128x32_S256x32_1_0_0_1_n_n.contr.Idx) :
    (dot_S256x128_S128x32_S256x32_1_0_0_1_n_n.lhsIdx i q 0).val = (i 0).val := by
  unfold DotDims.lhsIdx
  rw [dif_neg (show ¬(0 : Fin S256x128.rank) ∈ dot_S256x128_S128x32_S256x32_1_0_0_1_n_n.lhsBatch by decide), dif_pos (show (0 : Fin S256x128.rank) ∈ dot_S256x128_S128x32_S256x32_1_0_0_1_n_n.lhsNonContracting by decide)]
  rfl
/-- The projection's product: the first factor's column is the summation index. -/
private theorem lhs_q_1 (i : S256x32.Idx) (q : dot_S256x128_S128x32_S256x32_1_0_0_1_n_n.contr.Idx) :
    (dot_S256x128_S128x32_S256x32_1_0_0_1_n_n.lhsIdx i q 1).val = (q ⟨0, by decide⟩).val :=
  dot_S256x128_S128x32_S256x32_1_0_0_1_n_n.lhsIdx_val_of_single rfl i q
/-- The projection's product: the second factor's row is the summation index. -/
private theorem rhs_q_0 (i : S256x32.Idx) (q : dot_S256x128_S128x32_S256x32_1_0_0_1_n_n.contr.Idx) :
    (dot_S256x128_S128x32_S256x32_1_0_0_1_n_n.rhsIdx i q 0).val = (q ⟨0, by decide⟩).val :=
  dot_S256x128_S128x32_S256x32_1_0_0_1_n_n.rhsIdx_val_of_single rfl i q
/-- The projection's product: the second factor's column is the result's column. -/
private theorem rhs_q_1 (i : S256x32.Idx) (q : dot_S256x128_S128x32_S256x32_1_0_0_1_n_n.contr.Idx) :
    (dot_S256x128_S128x32_S256x32_1_0_0_1_n_n.rhsIdx i q 1).val = (i 1).val := by
  unfold DotDims.rhsIdx
  rw [dif_neg (show ¬(1 : Fin S128x32.rank) ∈ dot_S256x128_S128x32_S256x32_1_0_0_1_n_n.rhsBatch by decide), dif_pos (show (1 : Fin S128x32.rank) ∈ dot_S256x128_S128x32_S256x32_1_0_0_1_n_n.rhsNonContracting by decide)]
  rfl
/-- The projection's product, into a zero array, at row `r` and column `c`: the sum over `k` of the first factor at `(r, k)` times the second at `(k, c)`. -/
private theorem q_matmul_apply (a : FVec Ideal S256x128 .bf16) (b : FVec Ideal S128x32 .bf16) (r : Fin 256) (c : Fin 32) :
    matmul dot_S256x128_S128x32_S256x32_1_0_0_1_n_n none a b (constant (F := Ideal) S256x32 .f32 0x00000000#32) (ix2 r c)
      = ∑ k : Fin 128, a (ix2 r k) * b (ix2 k c) := by
  refine (Ideal.matmul_constant_zero_apply dot_S256x128_S128x32_S256x32_1_0_0_1_n_n none a b (ix2 r c)).trans ?_
  rw [← Equiv.sum_comp (contrEquiv1 dot_S256x128_S128x32_S256x32_1_0_0_1_n_n 128 rfl rfl).symm]
  refine Finset.sum_congr rfl fun k _ => ?_
  have hk := contrEquiv1_symm_val dot_S256x128_S128x32_S256x32_1_0_0_1_n_n 128 rfl rfl k
  have el : dot_S256x128_S128x32_S256x32_1_0_0_1_n_n.lhsIdx (ix2 r c) ((contrEquiv1 dot_S256x128_S128x32_S256x32_1_0_0_1_n_n 128 rfl rfl).symm k) = ix2 r k := funext fun ax => Fin.ext (by
    match ax with
    | ⟨0, _⟩ => exact lhs_q_0 _ _
    | ⟨1, _⟩ => exact (lhs_q_1 _ _).trans hk)
  have er : dot_S256x128_S128x32_S256x32_1_0_0_1_n_n.rhsIdx (ix2 r c) ((contrEquiv1 dot_S256x128_S128x32_S256x32_1_0_0_1_n_n 128 rfl rfl).symm k) = ix2 k c := funext fun ax => Fin.ext (by
    match ax with
    | ⟨0, _⟩ => exact (rhs_q_0 _ _).trans hk
    | ⟨1, _⟩ => exact rhs_q_1 _ _)
  rw [el, er]

/-- The scores' product: the first factor's row is the result's row. -/
private theorem lhs_s_0 (i : S256x8192.Idx) (q : dot_S256x32_S32x8192_S256x8192_1_0_0_1_n_n.contr.Idx) :
    (dot_S256x32_S32x8192_S256x8192_1_0_0_1_n_n.lhsIdx i q 0).val = (i 0).val := by
  unfold DotDims.lhsIdx
  rw [dif_neg (show ¬(0 : Fin S256x32.rank) ∈ dot_S256x32_S32x8192_S256x8192_1_0_0_1_n_n.lhsBatch by decide), dif_pos (show (0 : Fin S256x32.rank) ∈ dot_S256x32_S32x8192_S256x8192_1_0_0_1_n_n.lhsNonContracting by decide)]
  rfl
/-- The scores' product: the first factor's column is the summation index. -/
private theorem lhs_s_1 (i : S256x8192.Idx) (q : dot_S256x32_S32x8192_S256x8192_1_0_0_1_n_n.contr.Idx) :
    (dot_S256x32_S32x8192_S256x8192_1_0_0_1_n_n.lhsIdx i q 1).val = (q ⟨0, by decide⟩).val :=
  dot_S256x32_S32x8192_S256x8192_1_0_0_1_n_n.lhsIdx_val_of_single rfl i q
/-- The scores' product: the second factor's row is the summation index. -/
private theorem rhs_s_0 (i : S256x8192.Idx) (q : dot_S256x32_S32x8192_S256x8192_1_0_0_1_n_n.contr.Idx) :
    (dot_S256x32_S32x8192_S256x8192_1_0_0_1_n_n.rhsIdx i q 0).val = (q ⟨0, by decide⟩).val :=
  dot_S256x32_S32x8192_S256x8192_1_0_0_1_n_n.rhsIdx_val_of_single rfl i q
/-- The scores' product: the second factor's column is the result's column. -/
private theorem rhs_s_1 (i : S256x8192.Idx) (q : dot_S256x32_S32x8192_S256x8192_1_0_0_1_n_n.contr.Idx) :
    (dot_S256x32_S32x8192_S256x8192_1_0_0_1_n_n.rhsIdx i q 1).val = (i 1).val := by
  unfold DotDims.rhsIdx
  rw [dif_neg (show ¬(1 : Fin S32x8192.rank) ∈ dot_S256x32_S32x8192_S256x8192_1_0_0_1_n_n.rhsBatch by decide), dif_pos (show (1 : Fin S32x8192.rank) ∈ dot_S256x32_S32x8192_S256x8192_1_0_0_1_n_n.rhsNonContracting by decide)]
  rfl
/-- The scores' product, into a zero array, at row `r` and column `c`: the sum over `k` of the first factor at `(r, k)` times the second at `(k, c)`. -/
private theorem s_matmul_apply (a : FVec Ideal S256x32 .bf16) (b : FVec Ideal S32x8192 .bf16) (r : Fin 256) (c : Fin 8192) :
    matmul dot_S256x32_S32x8192_S256x8192_1_0_0_1_n_n none a b (constant (F := Ideal) S256x8192 .f32 0x00000000#32) (ix2 r c)
      = ∑ k : Fin 32, a (ix2 r k) * b (ix2 k c) := by
  refine (Ideal.matmul_constant_zero_apply dot_S256x32_S32x8192_S256x8192_1_0_0_1_n_n none a b (ix2 r c)).trans ?_
  rw [← Equiv.sum_comp (contrEquiv1 dot_S256x32_S32x8192_S256x8192_1_0_0_1_n_n 32 rfl rfl).symm]
  refine Finset.sum_congr rfl fun k _ => ?_
  have hk := contrEquiv1_symm_val dot_S256x32_S32x8192_S256x8192_1_0_0_1_n_n 32 rfl rfl k
  have el : dot_S256x32_S32x8192_S256x8192_1_0_0_1_n_n.lhsIdx (ix2 r c) ((contrEquiv1 dot_S256x32_S32x8192_S256x8192_1_0_0_1_n_n 32 rfl rfl).symm k) = ix2 r k := funext fun ax => Fin.ext (by
    match ax with
    | ⟨0, _⟩ => exact lhs_s_0 _ _
    | ⟨1, _⟩ => exact (lhs_s_1 _ _).trans hk)
  have er : dot_S256x32_S32x8192_S256x8192_1_0_0_1_n_n.rhsIdx (ix2 r c) ((contrEquiv1 dot_S256x32_S32x8192_S256x8192_1_0_0_1_n_n 32 rfl rfl).symm k) = ix2 k c := funext fun ax => Fin.ext (by
    match ax with
    | ⟨0, _⟩ => exact (rhs_s_0 _ _).trans hk
    | ⟨1, _⟩ => exact rhs_s_1 _ _)
  rw [el, er]

/-- The weighted sum's product: the first factor's row is the result's row. -/
private theorem lhs_o_0 (i : S256x32.Idx) (q : dot_S256x8192_S8192x32_S256x32_1_0_0_1_n_n.contr.Idx) :
    (dot_S256x8192_S8192x32_S256x32_1_0_0_1_n_n.lhsIdx i q 0).val = (i 0).val := by
  unfold DotDims.lhsIdx
  rw [dif_neg (show ¬(0 : Fin S256x8192.rank) ∈ dot_S256x8192_S8192x32_S256x32_1_0_0_1_n_n.lhsBatch by decide), dif_pos (show (0 : Fin S256x8192.rank) ∈ dot_S256x8192_S8192x32_S256x32_1_0_0_1_n_n.lhsNonContracting by decide)]
  rfl
/-- The weighted sum's product: the first factor's column is the summation index. -/
private theorem lhs_o_1 (i : S256x32.Idx) (q : dot_S256x8192_S8192x32_S256x32_1_0_0_1_n_n.contr.Idx) :
    (dot_S256x8192_S8192x32_S256x32_1_0_0_1_n_n.lhsIdx i q 1).val = (q ⟨0, by decide⟩).val :=
  dot_S256x8192_S8192x32_S256x32_1_0_0_1_n_n.lhsIdx_val_of_single rfl i q
/-- The weighted sum's product: the second factor's row is the summation index. -/
private theorem rhs_o_0 (i : S256x32.Idx) (q : dot_S256x8192_S8192x32_S256x32_1_0_0_1_n_n.contr.Idx) :
    (dot_S256x8192_S8192x32_S256x32_1_0_0_1_n_n.rhsIdx i q 0).val = (q ⟨0, by decide⟩).val :=
  dot_S256x8192_S8192x32_S256x32_1_0_0_1_n_n.rhsIdx_val_of_single rfl i q
/-- The weighted sum's product: the second factor's column is the result's column. -/
private theorem rhs_o_1 (i : S256x32.Idx) (q : dot_S256x8192_S8192x32_S256x32_1_0_0_1_n_n.contr.Idx) :
    (dot_S256x8192_S8192x32_S256x32_1_0_0_1_n_n.rhsIdx i q 1).val = (i 1).val := by
  unfold DotDims.rhsIdx
  rw [dif_neg (show ¬(1 : Fin S8192x32.rank) ∈ dot_S256x8192_S8192x32_S256x32_1_0_0_1_n_n.rhsBatch by decide), dif_pos (show (1 : Fin S8192x32.rank) ∈ dot_S256x8192_S8192x32_S256x32_1_0_0_1_n_n.rhsNonContracting by decide)]
  rfl
/-- The weighted sum's product, into a zero array, at row `r` and column `c`: the sum over `k` of the first factor at `(r, k)` times the second at `(k, c)`. -/
private theorem o_matmul_apply (a : FVec Ideal S256x8192 .bf16) (b : FVec Ideal S8192x32 .bf16) (r : Fin 256) (c : Fin 32) :
    matmul dot_S256x8192_S8192x32_S256x32_1_0_0_1_n_n none a b (constant (F := Ideal) S256x32 .f32 0x00000000#32) (ix2 r c)
      = ∑ k : Fin 8192, a (ix2 r k) * b (ix2 k c) := by
  refine (Ideal.matmul_constant_zero_apply dot_S256x8192_S8192x32_S256x32_1_0_0_1_n_n none a b (ix2 r c)).trans ?_
  rw [← Equiv.sum_comp (contrEquiv1 dot_S256x8192_S8192x32_S256x32_1_0_0_1_n_n 8192 rfl rfl).symm]
  refine Finset.sum_congr rfl fun k _ => ?_
  have hk := contrEquiv1_symm_val dot_S256x8192_S8192x32_S256x32_1_0_0_1_n_n 8192 rfl rfl k
  have el : dot_S256x8192_S8192x32_S256x32_1_0_0_1_n_n.lhsIdx (ix2 r c) ((contrEquiv1 dot_S256x8192_S8192x32_S256x32_1_0_0_1_n_n 8192 rfl rfl).symm k) = ix2 r k := funext fun ax => Fin.ext (by
    match ax with
    | ⟨0, _⟩ => exact lhs_o_0 _ _
    | ⟨1, _⟩ => exact (lhs_o_1 _ _).trans hk)
  have er : dot_S256x8192_S8192x32_S256x32_1_0_0_1_n_n.rhsIdx (ix2 r c) ((contrEquiv1 dot_S256x8192_S8192x32_S256x32_1_0_0_1_n_n 8192 rfl rfl).symm k) = ix2 k c := funext fun ax => Fin.ext (by
    match ax with
    | ⟨0, _⟩ => exact (rhs_o_0 _ _).trans hk
    | ⟨1, _⟩ => exact rhs_o_1 _ _)
  rw [el, er]

/-! ## The layers of the body -/

/-- The projected queries of the block: x W + b, the bias row repeated down the 256 rows. -/
private def qArr (x0 : FVec Ideal S256x128 .f32) (wq : FVec Ideal S128x32 .f32) (bq : FVec Ideal S32 .f32) :
    FVec Ideal S256x32 .bf16 :=
  truncf .bf16 (addf (matmul dot_S256x128_S128x32_S256x32_1_0_0_1_n_n none (truncf .bf16 x0 bitsLt_bf16_f32) (truncf .bf16 wq bitsLt_bf16_f32)
      (constant S256x32 .f32 0x00000000#32))
    (broadcastTo S256x32 (shapeCast S1x32 bq shapeCasts_S32_S1x32) broadcasts_S1x32_S256x32)) bitsLt_bf16_f32

/-- The scores: the projected queries times the transposed keys. -/
private def sArr (q : FVec Ideal S256x32 .bf16) (kt : FVec Ideal S32x8192 .bf16) : FVec Ideal S256x8192 .f32 :=
  matmul dot_S256x32_S32x8192_S256x8192_1_0_0_1_n_n none q (shapeCast S32x8192 kt shapeCasts_S32x8192_S32x8192) (constant S256x8192 .f32 0x00000000#32)

/-- Each row's largest score, from minus infinity. -/
private def mArr (s : FVec Ideal S256x8192 .f32) : FVec Ideal S256 .f32 :=
  multiReduction .maximumf [1] S256 s 0xFF800000#32 reduces_S256x8192_S256 (.inl rfl) rfl

/-- The weights: the exponential of each score less its row's largest. -/
private def pArr (s : FVec Ideal S256x8192 .f32) : FVec Ideal S256x8192 .f32 :=
  exp (subf s (broadcastTo S256x8192 (shapeCast S256x1 (mArr s) shapeCasts_S256_S256x1) broadcasts_S256x1_S256x8192))

/-- Each row's normaliser: the sum of its weights. -/
private def zArr (p : FVec Ideal S256x8192 .f32) : FVec Ideal S256 .f32 :=
  multiReduction .add [1] S256 p 0x00000000#32 reduces_S256x8192_S256 (.inl rfl) rfl

/-- The weights times the value rows, each row divided by its normaliser. -/
private def oArr (p : FVec Ideal S256x8192 .f32) (v : FVec Ideal S8192x32 .bf16) : FVec Ideal S256x32 .f32 :=
  divf (matmul dot_S256x8192_S8192x32_S256x32_1_0_0_1_n_n none (truncf .bf16 p bitsLt_bf16_f32) (shapeCast S8192x32 v shapeCasts_S8192x32_S8192x32)
      (constant S256x32 .f32 0x00000000#32))
    (broadcastTo S256x32 (shapeCast S256x1 (zArr p) shapeCasts_S256_S256x1) broadcasts_S256x1_S256x32)

/-- The body is these layers, one over the other. -/
private theorem pay2_eq (x0 : FVec Ideal S256x128 .f32) (wq : FVec Ideal S128x32 .f32) (bq : FVec Ideal S32 .f32)
    (kt : FVec Ideal S32x8192 .bf16) (v : FVec Ideal S8192x32 .bf16) :
    k1_pay2 (F := Ideal) x0 wq bq kt v = oArr (pArr (sArr (qArr x0 wq bq) kt)) v := rfl

/-! ## Each layer read at an entry -/

/-- A projected query's entry: row r of the block times column e of the weights, plus the bias at e. -/
private theorem qArr_apply (x0 : FVec Ideal S256x128 .f32) (wq : FVec Ideal S128x32 .f32) (bq : FVec Ideal S32 .f32)
    (r : Fin 256) (e : Fin 32) : qArr x0 wq bq (ix2 r e) = proj (m2 x0 r) (m2 wq) (m1 bq) e := by
  unfold qArr
  rw [truncf_apply, addf_apply, q_matmul_apply, broadcastTo_1b_ab_apply, shapeCast_a_1a_apply]
  rfl

/-- A score: the projected query row r against column j of the transposed keys. -/
private theorem sArr_apply (q : FVec Ideal S256x32 .bf16) (kt : FVec Ideal S32x8192 .bf16) (r : Fin 256) (j : Fin 8192) :
    sArr q kt (ix2 r j) = ∑ e : Fin 32, q (ix2 r e) * kt (ix2 e j) := by
  unfold sArr
  rw [shapeCast_self, s_matmul_apply]

/-- The index of row r with the column k put back. -/
private theorem lift_row (h : S256x8192.Reduces [1] S256) (r : Fin 256) (k : Fin 8192) : h.lift (ix1 r) k = ix2 r k :=
  funext fun ax => Fin.ext (by
    match ax with
    | ⟨0, _⟩ => rfl
    | ⟨1, _⟩ => rfl)

/-- Row r's largest score is the specification's row maximum of that row's scores. -/
private theorem mArr_apply (s : FVec Ideal S256x8192 .f32) (r : Fin 256) :
    mArr s (ix1 r) = rowMax (fun j => s (ix2 r j)) := by
  unfold mArr
  refine (Ideal.multiReduction_maximumf_single s _ reduces_S256x8192_S256 _ _ (ix1 r)).trans ?_
  have hrow : (s ∘ reduces_S256x8192_S256.lift (ix1 r)) = fun j : Fin 8192 => s (ix2 r j) :=
    funext fun k => congrArg s (lift_row _ r k)
  rw [hrow]
  rfl

/-- A weight: the exponential of the score less the row's maximum. -/
private theorem pArr_apply (s : FVec Ideal S256x8192 .f32) (r : Fin 256) (j : Fin 8192) :
    pArr s (ix2 r j) = wexp (fun j => s (ix2 r j)) j := by
  unfold pArr
  show Ideal.exp (s (ix2 r j) - broadcastTo S256x8192 (shapeCast S256x1 (mArr s) shapeCasts_S256_S256x1)
    broadcasts_S256x1_S256x8192 (ix2 r j)) = _
  rw [Cert.LibColumn.broadcastTo_a1_ab_apply, Cert.LibColumn.shapeCast_a_a1_apply, mArr_apply]
  rfl

/-- Row r's normaliser: the sum of the row's weights. -/
private theorem zArr_apply (p : FVec Ideal S256x8192 .f32) (r : Fin 256) :
    zArr p (ix1 r) = ∑ j : Fin 8192, p (ix2 r j) := by
  unfold zArr
  refine (Ideal.multiReduction_add_single p _ reduces_S256x8192_S256 _ _ (ix1 r)).trans ?_
  exact Finset.sum_congr rfl fun k _ => congrArg p (lift_row _ r k)

/-- The averaged entry: the weighted sum of column d of the values, divided by the row's normaliser. -/
private theorem oArr_apply (p : FVec Ideal S256x8192 .f32) (v : FVec Ideal S8192x32 .bf16) (r : Fin 256) (d : Fin 32) :
    oArr p v (ix2 r d)
      = Ideal.div (∑ j : Fin 8192, p (ix2 r j) * v (ix2 j d)) (∑ j : Fin 8192, p (ix2 r j)) := by
  unfold oArr
  rw [divf_apply, shapeCast_self, o_matmul_apply, Cert.LibColumn.broadcastTo_a1_ab_apply,
    Cert.LibColumn.shapeCast_a_a1_apply, zArr_apply]
  rfl

/-! ## The body at an entry -/

theorem fused_payload (x0 : FVec Ideal S256x128 .f32) (wq : FVec Ideal S128x32 .f32) (bq : FVec Ideal S32 .f32)
    (kt : FVec Ideal S32x8192 .bf16) (v : FVec Ideal S8192x32 .bf16) (r : Fin 256) (d : Fin 32) :
    k1_pay2 (F := Ideal) x0 wq bq kt v (ix2 r d)
      = fusedK (score (proj (m2 x0 r) (m2 wq) (m1 bq)) (fun j e => kt (ix2 e j))) (fun j e => v (ix2 j e)) d := by
  -- row r's scores are the specification's scores of the projected row
  have hs : (fun j : Fin 8192 => sArr (qArr x0 wq bq) kt (ix2 r j))
      = score (proj (m2 x0 r) (m2 wq) (m1 bq)) (fun j e => kt (ix2 e j)) := by
    funext j
    rw [sArr_apply]
    exact Finset.sum_congr rfl fun e _ => by rw [qArr_apply]
  rw [pay2_eq, oArr_apply]
  simp only [pArr_apply]
  rw [hs]
  rfl

end Cert.KernelIdeal.AttnFused

end
-- ==== Proof.AttnBody.lean ====
/-
  The second launch's body after the attention average, read at an index: the layer normalisation of the averaged
  row (mean, variance, reciprocal square root, scale, shift) and the last linear map to 128 entries.

  Everything is first read over an ARBITRARY averaged block f of 256 rows by 32 entries: the column of row means is the
  specification's mean of each row, the centred block is the entry minus that mean, the column of variances is the
  specification's variance, and the last stage at (r, n) is the sum over the 32 normalised entries of row r against
  column n of the weight, plus the bias.  Only at the end is f's row r replaced by the attention average of query row r.
-/
import proofs.«413681_j1288490188988_3_alg».proof.Proof.Gen.KernelIdeal.Skeleton
import proofs.«413681_j1288490188988_3_alg».proof.Proof.KernelSpec
import proofs.«413681_j1288490188988_3_alg».proof.Proof.LibColumn
import proofs.«413681_j1288490188988_3_alg».proof.Proof.AttnFused
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttnBody

open Cert.KernelIdeal Cert.KernelIdeal.Gen Cert.KernelIdeal.ASpec Idealize.ShloMosaic Idealize.ShloMosaic.ValueIdx Cert.Attn
open scoped BigOperators

/-! ## The row statistics of an arbitrary block -/

/-- The lane sum of a block of 256 rows by 32, read at row r, is the sum of that row's 32 entries. -/
private theorem rowSum_apply (f : FVec Ideal S256x32 .f32) (h : S256x32.Reduces [1] S256) (hφ : FKind.Formats .f32)
    (hacc : (0x00000000#32 : BitVec FTy.f32.bits) = FKind.add.neutral .f32 hφ) (r : Fin 256) :
    multiReduction (F := Ideal) .add [1] S256 f 0x00000000#32 h hφ hacc (ix1 r) = ∑ e : Fin 32, f (ix2 r e) := by
  refine (Ideal.multiReduction_add_single f 0x00000000#32 h hφ hacc (ix1 r)).trans ?_
  show ∑ k : Fin 32, f (h.lift (ix1 r) k) = _
  refine Finset.sum_congr rfl fun k _ => congrArg f ?_
  funext c
  apply Fin.ext
  match c with
  | ⟨0, _⟩ => rfl
  | ⟨1, _⟩ => rfl

/-- The column of row means of a block: the row sums, as a column, over the word of 32. -/
private def meanCol (f : FVec Ideal S256x32 .f32) : FVec Ideal S256x1 .f32 :=
  divf (shapeCast S256x1 (multiReduction (F := Ideal) .add [1] S256 f 0x00000000#32 reduces_S256x32_S256 (.inl rfl) rfl) shapeCasts_S256_S256x1)
    (broadcast S256x1 (Scalar.ofBits (F := Ideal) .f32 0x42000000#32))

/-- The block minus its row means. -/
private def centred (f : FVec Ideal S256x32 .f32) : FVec Ideal S256x32 .f32 :=
  subf f (broadcastTo S256x32 (meanCol f) broadcasts_S256x1_S256x32)

/-- The column of row variances: the row sums of the squared centred block, as a column, over the word of 32. -/
private def varCol (f : FVec Ideal S256x32 .f32) : FVec Ideal S256x1 .f32 :=
  divf (shapeCast S256x1 (multiReduction (F := Ideal) .add [1] S256 (mulf (centred f) (centred f)) 0x00000000#32 reduces_S256x32_S256 (.inl rfl) rfl) shapeCasts_S256_S256x1)
    (broadcast S256x1 (Scalar.ofBits (F := Ideal) .f32 0x42000000#32))

/-- At (r, u) the column of row means holds the mean of row r. -/
private theorem meanCol_apply (f : FVec Ideal S256x32 .f32) (r : Fin 256) (u : Fin 1) :
    meanCol f (ix2 r u) = mean (fun e => f (ix2 r e)) := by
  unfold meanCol mean
  refine (divf_apply _ _ _).trans ?_
  refine congrArg₂ Ideal.div ?_ rfl
  refine (Cert.LibColumn.shapeCast_a_a1_apply _ shapeCasts_S256_S256x1 r u).trans ?_
  exact rowSum_apply f _ _ _ r

/-- At (r, e) the centred block holds the entry minus the mean of row r. -/
private theorem centred_apply (f : FVec Ideal S256x32 .f32) (r : Fin 256) (e : Fin 32) :
    centred f (ix2 r e) = f (ix2 r e) - mean (fun e => f (ix2 r e)) := by
  unfold centred
  refine (subf_apply _ _ _).trans ?_
  refine congrArg (fun t => f (ix2 r e) - t) ?_
  refine (Cert.LibColumn.broadcastTo_a1_ab_apply _ broadcasts_S256x1_S256x32 r e).trans ?_
  exact meanCol_apply f r 0

/-- At (r, u) the column of row variances holds the variance of row r. -/
private theorem varCol_apply (f : FVec Ideal S256x32 .f32) (r : Fin 256) (u : Fin 1) :
    varCol f (ix2 r u) = var (fun e => f (ix2 r e)) := by
  unfold varCol var
  refine (divf_apply _ _ _).trans ?_
  refine congrArg₂ Ideal.div ?_ rfl
  refine (Cert.LibColumn.shapeCast_a_a1_apply _ shapeCasts_S256_S256x1 r u).trans ?_
  refine (rowSum_apply _ _ _ _ r).trans ?_
  refine Finset.sum_congr rfl fun e _ => ?_
  refine (mulf_apply _ _ _).trans ?_
  rw [centred_apply]

/-! ## The last stage over arbitrary operands -/

/-- The normalised, scaled and shifted block at (r, e): the centred entry times the reciprocal square root of row r's
    padded variance, times the scale's entry e, plus the shift's entry e. -/
private theorem normBlock_apply (vr : FVec Ideal S256x1 .f32) (ce : FVec Ideal S256x32 .f32) (ep : FVec Ideal S256x1 .f32)
    (g b : FVec Ideal S32 .f32) (r : Fin 256) (e : Fin 32) :
    (addf (mulf (mulf ce (broadcastTo S256x32 (rsqrt (addf vr ep)) broadcasts_S256x1_S256x32))
        (broadcastTo S256x32 (shapeCast S1x32 g shapeCasts_S32_S1x32) broadcasts_S1x32_S256x32))
      (broadcastTo S256x32 (shapeCast S1x32 b shapeCasts_S32_S1x32) broadcasts_S1x32_S256x32) : FVec Ideal S256x32 .f32) (ix2 r e)
      = ce (ix2 r e) * Ideal.rsqrt (vr (ix2 r (0 : Fin 1)) + ep (ix2 r (0 : Fin 1))) * g (ix1 e) + b (ix1 e) := by
  refine (addf_apply _ _ _).trans ?_
  refine congrArg₂ (· + ·) ?_ ?_
  · refine (mulf_apply _ _ _).trans ?_
    refine congrArg₂ (· * ·) ?_ ?_
    · refine (mulf_apply _ _ _).trans ?_
      refine congrArg (fun t => ce (ix2 r e) * t) ?_
      exact Cert.LibColumn.broadcastTo_a1_ab_apply _ broadcasts_S256x1_S256x32 r e
    · refine (broadcastTo_1b_ab_apply _ broadcasts_S1x32_S256x32 r e).trans ?_
      exact shapeCast_a_1a_apply g shapeCasts_S32_S1x32 0 e
  · refine (broadcastTo_1b_ab_apply _ broadcasts_S1x32_S256x32 r e).trans ?_
    exact shapeCast_a_1a_apply b shapeCasts_S32_S1x32 0 e

/-- The left operand's index of the last product: its row is the result's row … -/
private theorem lhs_out_0 (i : S256x128.Idx) (q : dot_S256x32_S32x128_S256x128_1_0_0_1_n_n.contr.Idx) :
    (dot_S256x32_S32x128_S256x128_1_0_0_1_n_n.lhsIdx i q 0).val = (i 0).val := by
  unfold DotDims.lhsIdx
  rw [dif_neg (show ¬(0 : Fin S256x32.rank) ∈ dot_S256x32_S32x128_S256x128_1_0_0_1_n_n.lhsBatch by decide), dif_pos (show (0 : Fin S256x32.rank) ∈ dot_S256x32_S32x128_S256x128_1_0_0_1_n_n.lhsNonContracting by decide)]
  rfl
/-- … and its column the contracted coordinate. -/
private theorem lhs_out_1 (i : S256x128.Idx) (q : dot_S256x32_S32x128_S256x128_1_0_0_1_n_n.contr.Idx) :
    (dot_S256x32_S32x128_S256x128_1_0_0_1_n_n.lhsIdx i q 1).val = (q ⟨0, by decide⟩).val :=
  dot_S256x32_S32x128_S256x128_1_0_0_1_n_n.lhsIdx_val_of_single rfl i q
/-- The right operand's index: its row is the contracted coordinate … -/
private theorem rhs_out_0 (i : S256x128.Idx) (q : dot_S256x32_S32x128_S256x128_1_0_0_1_n_n.contr.Idx) :
    (dot_S256x32_S32x128_S256x128_1_0_0_1_n_n.rhsIdx i q 0).val = (q ⟨0, by decide⟩).val :=
  dot_S256x32_S32x128_S256x128_1_0_0_1_n_n.rhsIdx_val_of_single rfl i q
/-- … and its column the result's column. -/
private theorem rhs_out_1 (i : S256x128.Idx) (q : dot_S256x32_S32x128_S256x128_1_0_0_1_n_n.contr.Idx) :
    (dot_S256x32_S32x128_S256x128_1_0_0_1_n_n.rhsIdx i q 1).val = (i 1).val := by
  unfold DotDims.rhsIdx
  rw [dif_neg (show ¬(1 : Fin S32x128.rank) ∈ dot_S256x32_S32x128_S256x128_1_0_0_1_n_n.rhsBatch by decide), dif_pos (show (1 : Fin S32x128.rank) ∈ dot_S256x32_S32x128_S256x128_1_0_0_1_n_n.rhsNonContracting by decide)]
  rfl

/-- The last product into a zero accumulator, at (r, n): row r of the left operand against column n of the right. -/
private theorem matmul_out_apply (A : FVec Ideal S256x32 .bf16) (B : FVec Ideal S32x128 .bf16) (r : Fin 256) (n : Fin 128) :
    (matmul dot_S256x32_S32x128_S256x128_1_0_0_1_n_n none A B (constant (F := Ideal) S256x128 .f32 0x00000000#32) : FVec Ideal S256x128 .f32) (ix2 r n)
      = ∑ e : Fin 32, A (ix2 r e) * B (ix2 e n) := by
  refine (Ideal.matmul_constant_zero_apply dot_S256x32_S32x128_S256x128_1_0_0_1_n_n none A B (ix2 r n)).trans ?_
  rw [← Equiv.sum_comp (ValueIdx.contrEquiv1 dot_S256x32_S32x128_S256x128_1_0_0_1_n_n 32 rfl rfl).symm]
  refine Finset.sum_congr rfl fun k _ => ?_
  have hk := ValueIdx.contrEquiv1_symm_val dot_S256x32_S32x128_S256x128_1_0_0_1_n_n 32 rfl rfl k
  have el : dot_S256x32_S32x128_S256x128_1_0_0_1_n_n.lhsIdx (ix2 r n) ((ValueIdx.contrEquiv1 dot_S256x32_S32x128_S256x128_1_0_0_1_n_n 32 rfl rfl).symm k) = ix2 r k := funext fun a => Fin.ext (by
    match a with
    | ⟨0, _⟩ => exact lhs_out_0 _ _
    | ⟨1, _⟩ => exact (lhs_out_1 _ _).trans hk)
  have er : dot_S256x32_S32x128_S256x128_1_0_0_1_n_n.rhsIdx (ix2 r n) ((ValueIdx.contrEquiv1 dot_S256x32_S32x128_S256x128_1_0_0_1_n_n 32 rfl rfl).symm k) = ix2 k n := funext fun a => Fin.ext (by
    match a with
    | ⟨0, _⟩ => exact (rhs_out_0 _ _).trans hk
    | ⟨1, _⟩ => exact rhs_out_1 _ _)
  rw [el, er]

/-- The bias row broadcast over the 256 rows, at (r, n): the bias's entry n. -/
private theorem biasRow_apply (bo : FVec Ideal S128 .f32) (r : Fin 256) (n : Fin 128) :
    (broadcastTo S256x128 (shapeCast S1x128 bo shapeCasts_S128_S1x128) broadcasts_S1x128_S256x128 : FVec Ideal S256x128 .f32) (ix2 r n) = bo (ix1 n) :=
  (broadcastTo_1b_ab_apply _ broadcasts_S1x128_S256x128 r n).trans (shapeCast_a_1a_apply bo shapeCasts_S128_S1x128 0 n)

/-- The last stage at (r, n) over an arbitrary variance column, centred block and padding column. -/
private theorem tail_apply (vr : FVec Ideal S256x1 .f32) (ce : FVec Ideal S256x32 .f32) (ep : FVec Ideal S256x1 .f32)
    (g b : FVec Ideal S32 .f32) (wo : FVec Ideal S32x128 .f32) (bo : FVec Ideal S128 .f32) (r : Fin 256) (n : Fin 128) :
    k1_pay1 vr ce ep g b wo bo (ix2 r n)
      = (∑ e : Fin 32, (ce (ix2 r e) * Ideal.rsqrt (vr (ix2 r (0 : Fin 1)) + ep (ix2 r (0 : Fin 1))) * g (ix1 e) + b (ix1 e)) * wo (ix2 e n))
        + bo (ix1 n) := by
  unfold k1_pay1
  refine (addf_apply _ _ _).trans ?_
  refine congrArg₂ (· + ·) ?_ (biasRow_apply bo r n)
  refine (matmul_out_apply _ _ r n).trans ?_
  refine Finset.sum_congr rfl fun e _ => ?_
  refine congrArg₂ (· * ·) ?_ ?_
  · refine (truncf_apply (ψ := .bf16) _ bitsLt_bf16_f32 (ix2 r e)).trans ?_
    exact normBlock_apply vr ce ep g b r e
  · exact truncf_apply (ψ := .bf16) wo bitsLt_bf16_f32 (ix2 e n)

/-! ## The payload -/

theorem attn_payload (x0 : FVec Ideal S256x128 .f32) (wq : FVec Ideal S128x32 .f32) (bq : FVec Ideal S32 .f32)
    (kt : FVec Ideal S32x8192 .bf16) (v : FVec Ideal S8192x32 .bf16) (g b : FVec Ideal S32 .f32)
    (wo : FVec Ideal S32x128 .f32) (bo : FVec Ideal S128 .f32) (r : Fin 256) (n : Fin 128) :
    k1_pay1 (k1_pay4 x0 wq bq kt v) (k1_pay5 x0 wq bq kt v) (k1_pay6 (F := Ideal)) g b wo bo (ix2 r n)
      = attnRow (m2 x0 r) wq bq kt v g b wo bo n := by
  -- the three operands are the variance column, the centred block and the padding column of the averaged block
  have h4 : k1_pay4 (F := Ideal) x0 wq bq kt v = varCol (k1_pay2 (F := Ideal) x0 wq bq kt v) := rfl
  have h5 : k1_pay5 (F := Ideal) x0 wq bq kt v = centred (k1_pay2 (F := Ideal) x0 wq bq kt v) := rfl
  -- row r of the averaged block is the attention average of query row r
  have hf : (fun e : Fin 32 => k1_pay2 (F := Ideal) x0 wq bq kt v (ix2 r e))
      = fusedK (score (proj (m2 x0 r) (m2 wq) (m1 bq)) (fun j e => kt (ix2 e j))) (fun j e => v (ix2 j e)) :=
    funext fun e => Cert.KernelIdeal.AttnFused.fused_payload x0 wq bq kt v r e
  refine (tail_apply _ _ _ g b wo bo r n).trans ?_
  rw [h4, h5]
  generalize k1_pay2 (F := Ideal) x0 wq bq kt v = f at hf ⊢
  unfold attnRow lnTail
  refine congrArg₂ (· + ·) ?_ rfl
  refine Finset.sum_congr rfl fun e _ => ?_
  refine congrArg₂ (· * ·) ?_ rfl
  rw [centred_apply, varCol_apply, ← hf]
  rfl

end Cert.KernelIdeal.AttnBody

end
-- ==== Proof.AttnValue.lean ====
/-
  The second launch's result array as one function of the arrays it reads.

  The launch runs 32 points; point t reads rows 256 t … 256 t + 255 of the query array and the other eight arrays
  whole, and writes rows 256 t … 256 t + 255 of the result.  Row r of what point t writes is the attention row of
  query row 256 t + r, so block t of the result is block t of the whole-array function, and the 32 blocks cover it.
-/
import proofs.«413681_j1288490188988_3_alg».proof.Proof.Gen.KernelIdeal.Frame
import proofs.«413681_j1288490188988_3_alg».proof.Proof.KernelSpec
import proofs.«413681_j1288490188988_3_alg».proof.Proof.AttnBody
import Idealize.ShloMosaic.Lib.Pipeline.Value
import Idealize.ShloMosaic.Lib.ValueIdx

set_option maxRecDepth 16384

noncomputable section

namespace Cert.KernelIdeal.AttnValue

open Cert.KernelIdeal Cert.KernelIdeal.Gen Cert.KernelIdeal.ASpec Idealize.ShloMosaic Idealize.ShloMosaic.TcCoe Idealize.SL.Sem
open Idealize.ShloMosaic.ValueIdx Cert.Attn
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the 32 points: the query window and the result window sit at block row t, every other window at
    its one block. -/
theorem idx_facts : ∀ t : Fin cfg1.N,
    win1_0.index t (0 : Fin 2) = t.val ∧ win1_0.index t (1 : Fin 2) = 0
    ∧ win1_9.index t (0 : Fin 2) = t.val ∧ win1_9.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 1) = 0
    ∧ win1_7.index t (0 : Fin 2) = 0 ∧ win1_7.index t (1 : Fin 2) = 0
    ∧ win1_8.index t (0 : Fin 1) = 0 :=
  (by decide +kernel : ∀ t : Fin grid1.N, _)

/-! Each array the launch reads whole: its one block, at any point, is the array. -/

/-- the query weights -/
theorem blk_1 (c : Dev nD) (t : Fin cfg1.N) : (iblk1 V c 1 t : S128x32.Idx → EReal) = V c main_arg2 := by
  have hi := idx_facts t
  funext j
  show V c main_arg2 (((cfg1.win 1).blk t).view.emb j) = V c main_arg2 j
  refine congrArg _ (funext fun a => Fin.ext ?_)
  match a with
  | ⟨0, _⟩ => show win1_1.index t (0 : Fin 2) * 128 + 1 * (j 0).val = (j 0).val; omega
  | ⟨1, _⟩ => show win1_1.index t (1 : Fin 2) * 32 + 1 * (j 1).val = (j 1).val; omega

/-- the query bias -/
theorem blk_2 (c : Dev nD) (t : Fin cfg1.N) : (iblk1 V c 2 t : S32.Idx → EReal) = V c main_arg3 := by
  have hi := idx_facts t
  funext j
  show V c main_arg3 (((cfg1.win 2).blk t).view.emb j) = V c main_arg3 j
  refine congrArg _ (funext fun a => Fin.ext ?_)
  match a with
  | ⟨0, _⟩ => show win1_2.index t (0 : Fin 1) * 32 + 1 * (j 0).val = (j 0).val; omega

/-- the transposed projected keys -/
theorem blk_3 (c : Dev nD) (t : Fin cfg1.N) : (iblk1 V c 3 t : S32x8192.Idx → EReal) = V c main_v0_0 := by
  have hi := idx_facts t
  funext j
  show V c main_v0_0 (((cfg1.win 3).blk t).view.emb j) = V c main_v0_0 j
  refine congrArg _ (funext fun a => Fin.ext ?_)
  match a with
  | ⟨0, _⟩ => show win1_3.index t (0 : Fin 2) * 32 + 1 * (j 0).val = (j 0).val; omega
  | ⟨1, _⟩ => show win1_3.index t (1 : Fin 2) * 8192 + 1 * (j 1).val = (j 1).val; omega

/-- the projected values -/
theorem blk_4 (c : Dev nD) (t : Fin cfg1.N) : (iblk1 V c 4 t : S8192x32.Idx → EReal) = V c main_v0_1 := by
  have hi := idx_facts t
  funext j
  show V c main_v0_1 (((cfg1.win 4).blk t).view.emb j) = V c main_v0_1 j
  refine congrArg _ (funext fun a => Fin.ext ?_)
  match a with
  | ⟨0, _⟩ => show win1_4.index t (0 : Fin 2) * 8192 + 1 * (j 0).val = (j 0).val; omega
  | ⟨1, _⟩ => show win1_4.index t (1 : Fin 2) * 32 + 1 * (j 1).val = (j 1).val; omega

/-- the scale of the normalisation -/
theorem blk_5 (c : Dev nD) (t : Fin cfg1.N) : (iblk1 V c 5 t : S32.Idx → EReal) = V c main_arg8 := by
  have hi := idx_facts t
  funext j
  show V c main_arg8 (((cfg1.win 5).blk t).view.emb j) = V c main_arg8 j
  refine congrArg _ (funext fun a => Fin.ext ?_)
  match a with
  | ⟨0, _⟩ => show win1_5.index t (0 : Fin 1) * 32 + 1 * (j 0).val = (j 0).val; omega

/-- the shift of the normalisation -/
theorem blk_6 (c : Dev nD) (t : Fin cfg1.N) : (iblk1 V c 6 t : S32.Idx → EReal) = V c main_arg9 := by
  have hi := idx_facts t
  funext j
  show V c main_arg9 (((cfg1.win 6).blk t).view.emb j) = V c main_arg9 j
  refine congrArg _ (funext fun a => Fin.ext ?_)
  match a with
  | ⟨0, _⟩ => show win1_6.index t (0 : Fin 1) * 32 + 1 * (j 0).val = (j 0).val; omega

/-- the weights of the last linear map -/
theorem blk_7 (c : Dev nD) (t : Fin cfg1.N) : (iblk1 V c 7 t : S32x128.Idx → EReal) = V c main_arg10 := by
  have hi := idx_facts t
  funext j
  show V c main_arg10 (((cfg1.win 7).blk t).view.emb j) = V c main_arg10 j
  refine congrArg _ (funext fun a => Fin.ext ?_)
  match a with
  | ⟨0, _⟩ => show win1_7.index t (0 : Fin 2) * 32 + 1 * (j 0).val = (j 0).val; omega
  | ⟨1, _⟩ => show win1_7.index t (1 : Fin 2) * 128 + 1 * (j 1).val = (j 1).val; omega

/-- the bias of the last linear map -/
theorem blk_8 (c : Dev nD) (t : Fin cfg1.N) : (iblk1 V c 8 t : S128.Idx → EReal) = V c main_arg11 := by
  have hi := idx_facts t
  funext j
  show V c main_arg11 (((cfg1.win 8).blk t).view.emb j) = V c main_arg11 j
  refine congrArg _ (funext fun a => Fin.ext ?_)
  match a with
  | ⟨0, _⟩ => show win1_8.index t (0 : Fin 1) * 128 + 1 * (j 0).val = (j 0).val; omega

/-- Row r of the query block at point t is row 256 t + r of the query array. -/
theorem row_0 (c : Dev nD) (t : Fin cfg1.N) (r : Fin 256) (R : Fin 8192) (hR : R.val = t.val * 256 + r.val) :
    m2 (iblk1 V c 0 t : S256x128.Idx → EReal) r = m2 (V c main_arg0 : S8192x128.Idx → EReal) R := by
  have hi := idx_facts t
  funext a
  show V c main_arg0 (((cfg1.win 0).blk t).view.emb (ix2 r a)) = V c main_arg0 (ix2 R a)
  refine congrArg _ (funext fun ax => Fin.ext ?_)
  match ax with
  | ⟨0, _⟩ => show win1_0.index t (0 : Fin 2) * 256 + 1 * r.val = R.val; omega
  | ⟨1, _⟩ => show win1_0.index t (1 : Fin 2) * 128 + 1 * a.val = a.val; omega

/-- an attention row depends on the query row and the column only through their values -/
theorem attnRow_at (x x' : Fin 128 → EReal) (wq : S128x32.Idx → EReal) (bq : S32.Idx → EReal)
    (kt : S32x8192.Idx → EReal) (v : S8192x32.Idx → EReal) (g b : S32.Idx → EReal)
    (wo : S32x128.Idx → EReal) (bo : S128.Idx → EReal) (n n' : Fin 128) (hx : x = x') (hn : n = n') :
    attnRow x wq bq kt v g b wo bo n = attnRow x' wq bq kt v g b wo bo n' := by
  subst hx; subst hn; rfl

/-- WHAT POINT t WRITES BACK is block t of the whole-array function. -/
theorem flushed_eq (c : Dev nD) (t : Fin cfg1.N) (hf : (cfg1.win 9).flush t = true) :
    (dat1 (F := Ideal) V c).flushed 9 t = ((cfg1.win 9).blk t).view.read (Elt Ideal)
      (outArr (V c main_arg0) (V c main_arg2) (V c main_arg3) (V c main_v0_0) (V c main_v0_1)
        (V c main_arg8) (V c main_arg9) (V c main_arg10) (V c main_arg11)) := by
  show (cfg1.win 9).cut (grid1.coords t) ((dat1 V c).after 9 t) = _
  rw [after1_9]
  unfold out1_9
  rw [View.canon_unit_zero hz2]
  simp only [View.ld_unit_zero (S := S256x128) hz2, View.ld_unit_zero (S := S128x32) hz2, View.ld_unit_zero (S := S32) hz1,
    View.ld_unit_zero (S := S32x8192) hz2, View.ld_unit_zero (S := S8192x32) hz2, View.ld_unit_zero (S := S32x128) hz2,
    View.ld_unit_zero (S := S128) hz1]
  have hi := idx_facts t
  funext y
  obtain ⟨r, n, rfl⟩ : ∃ (r : Fin 256) (n : Fin 128), y = ix2 r n := ⟨y 0, y 1, eq_ix2 y⟩
  refine (AttnBody.attn_payload (iblk1 V c 0 t) (iblk1 V c 1 t) (iblk1 V c 2 t) (iblk1 V c 3 t) (iblk1 V c 4 t)
    (iblk1 V c 5 t) (iblk1 V c 6 t) (iblk1 V c 7 t) (iblk1 V c 8 t) r n).trans ?_
  rw [View.read_apply]
  unfold outArr
  rw [blk_1, blk_2, blk_3, blk_4, blk_5, blk_6, blk_7, blk_8]
  simp only [cast_eq]
  refine attnRow_at _ _ _ _ _ _ _ _ _ _ _ _ (row_0 V c t r _ ?_) (Fin.ext ?_)
  · show win1_9.index t (0 : Fin 2) * 256 + 1 * r.val = t.val * 256 + r.val
    omega
  · show n.val = win1_9.index t (1 : Fin 2) * 128 + 1 * n.val
    omega

/-- An index of the result array is in point t's block iff each coordinate is in the block's range on its axis. -/
theorem mem_blk (t : Fin cfg1.N) (i : S8192x128.Idx) :
    i ∈ ((cfg1.win 9).blk t).view.set ↔ ∀ a : Fin 2, win1_9.index t a * S256x128.size a ≤ (i a).val ∧ (i a).val < win1_9.index t a * S256x128.size a + S256x128.size a := by
  show i ∈ ((View.whole main_v1).slice (win1_9.rect t)).set ↔ _
  rw [View.set_slice_whole, Rect.mem_set_unit]
  exact Iff.rfl

/-- THE RESULT ARRAY after the launch: the whole-array function of the arrays as the launch found them. Row R lies in
    the block of point R / 256. -/
theorem out_final (c : Dev nD) :
    (dat1 (F := Ideal) V c).arrAt 9 cfg1.N
      = outArr (V c main_arg0) (V c main_arg2) (V c main_arg3) (V c main_v0_0) (V c main_v0_1)
          (V c main_arg8) (V c main_arg9) (V c main_arg10) (V c main_arg11) :=
  (dat1 (F := Ideal) V c).arrAt_eq_of_cover 9 _ (flushed_eq V c) fun i => by
    have h0 : (i 0).val < 8192 := (i 0).isLt
    have h1 : (i 1).val < 128 := (i 1).isLt
    have hN : cfg1.N = 32 := N_1
    refine ⟨⟨(i 0).val / 256, by omega⟩, flush1_9 _, ?_⟩
    rw [mem_blk]
    have hi := idx_facts ⟨(i 0).val / 256, by omega⟩
    intro a
    match a with
    | ⟨0, _⟩ =>
      show win1_9.index ⟨(i 0).val / 256, _⟩ (0 : Fin 2) * 256 ≤ (i 0).val ∧ (i 0).val < win1_9.index ⟨(i 0).val / 256, _⟩ (0 : Fin 2) * 256 + 256
      rw [hi.2.2.1]
      show (i 0).val / 256 * 256 ≤ (i 0).val ∧ (i 0).val < (i 0).val / 256 * 256 + 256
      omega
    | ⟨1, _⟩ =>
      show win1_9.index ⟨(i 0).val / 256, _⟩ (1 : Fin 2) * 128 ≤ (i 1).val ∧ (i 1).val < win1_9.index ⟨(i 0).val / 256, _⟩ (1 : Fin 2) * 128 + 128
      rw [hi.2.2.2.1]
      omega

end Cert.KernelIdeal.AttnValue

end
-- ==== Proof.KernelValue.lean ====
/-
  The idealized kernel's run, read: the result array as one function of the arrays as launched.

  The first launch leaves the transposed projected keys and the projected values; the second launch finds them, and the
  seven argument arrays it reads, as they were launched, and leaves the attention of every query row over them,
  normalised and mapped to 128 entries.
-/
import proofs.«413681_j1288490188988_3_alg».proof.Proof.KernelRun
import proofs.«413681_j1288490188988_3_alg».proof.Proof.KvValue
import proofs.«413681_j1288490188988_3_alg».proof.Proof.AttnValue

noncomputable section

namespace Cert.KernelIdeal.Whole

open Cert.KernelIdeal Cert.KernelIdeal.Gen Cert.KernelIdeal.ASpec Idealize.ShloMosaic Idealize.ShloMosaic.TcCoe Idealize.SL.Sem

variable (m : (ℓ : Loc nD τ sig) → Buf (Elt Ideal) ℓ) (ρ : Dev nD → PrngReg)

/-- the result array of the two launches, from the arrays as launched -/
abbrev result (c : Dev nD) : Buf (Elt Ideal) ((c : Thread nD τ).loc main_v1) :=
  outArr (m ((c : Thread nD τ).loc main_arg0)) (m ((c : Thread nD τ).loc main_arg2)) (m ((c : Thread nD τ).loc main_arg3))
    (ktArr (m ((c : Thread nD τ).loc main_arg1)) (m ((c : Thread nD τ).loc main_arg4)) (m ((c : Thread nD τ).loc main_arg5)))
    (vArr (m ((c : Thread nD τ).loc main_arg1)) (m ((c : Thread nD τ).loc main_arg6)) (m ((c : Thread nD τ).loc main_arg7)))
    (m ((c : Thread nD τ).loc main_arg8)) (m ((c : Thread nD τ).loc main_arg9)) (m ((c : Thread nD τ).loc main_arg10)) (m ((c : Thread nD τ).loc main_arg11))

/-- What the last boundary holds for the result array is that function. -/
theorem result_eq (c : Dev nD) : W2 m ρ c (Proc.devRef .tc main_v1) = result m c := by
  rw [RunNamed.W2_main_v1, AttnValue.out_final (V1 m ρ) c, RunNamed.V1_main_arg0, RunNamed.V1_main_arg2, RunNamed.V1_main_arg3,
    RunNamed.V1_main_arg8, RunNamed.V1_main_arg9, RunNamed.V1_main_arg10, RunNamed.V1_main_arg11,
    RunNamed.V1_main_v0_0, RunNamed.V1_main_v0_1, KvValue.kt_final (V0 m ρ) c, KvValue.v_final (V0 m ρ) c]

/-- The run with the result array at that function and the arguments unchanged. -/
theorem run : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_eq m ρ c), (h c).2⟩) (RunNamed.run_main (F := Ideal) m ρ)

end Cert.KernelIdeal.Whole

end
-- ==== Proof.RefValue.lean ====
/-
  The reference program read at one result element.  Bottom up, one intermediate array at a time: the three projected
  inputs, the score matrix, each row's maximum, the softmax weights and their normaliser, the averaged row, its mean and
  variance, the normalised row, and the last linear map.  Every stage is read at an index given by its coordinates and
  identified with the specification's function of the same name; the result is the specification's `outR`.
-/
import proofs.«413681_j1288490188988_3_alg».proof.Proof.Gen.ReferenceIdeal.Read
import proofs.«413681_j1288490188988_3_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Attn

/-- two indices with the same coordinates are the same index -/
local macro "idx_eq" : tactic => `(tactic| (funext a; apply Fin.ext; fin_cases a <;> rfl))

section Layers

variable (x0 x1 : (⟨S8192x128, .f32⟩ : BufTy).Contents (Elt Ideal)) (x2 : (⟨S128x32, .f32⟩ : BufTy).Contents (Elt Ideal))
    (x3 : (⟨S32, .f32⟩ : BufTy).Contents (Elt Ideal)) (x4 : (⟨S128x32, .f32⟩ : BufTy).Contents (Elt Ideal))
    (x5 : (⟨S32, .f32⟩ : BufTy).Contents (Elt Ideal)) (x6 : (⟨S128x32, .f32⟩ : BufTy).Contents (Elt Ideal))
    (x7 x8 x9 : (⟨S32, .f32⟩ : BufTy).Contents (Elt Ideal)) (x10 : (⟨S32x128, .f32⟩ : BufTy).Contents (Elt Ideal))
    (x11 : (⟨S128, .f32⟩ : BufTy).Contents (Elt Ideal))

/-- the projected query rows: row i of the first input through the first linear map, at column d -/
private theorem q_apply (i : Fin 8192) (d : Fin 32) :
    val_main_v3 (F := Ideal) x0 x2 x3 (ix2 i d) = proj (m2 x0 i) (m2 x2) (m1 x3) d := by
  rw [val_main_v3_apply, val_main_v0_apply, val_main_v2_apply, val_main_v1_apply, Ideal.addf_def]
  show _ = (∑ a : Fin 128, x0 (ix2 i a) * x2 (ix2 a d)) + x3 (ix1 d)
  refine congrArg₂ (· + ·) (Finset.sum_congr rfl fun k _ => congrArg₂ (· * ·) (congrArg x0 ?_) (congrArg x2 ?_)) (congrArg x3 ?_) <;> idx_eq

/-- the projected key rows: row i of the second input through the second linear map, at column d -/
private theorem k_apply (i : Fin 8192) (d : Fin 32) :
    val_main_v7 (F := Ideal) x1 x4 x5 (ix2 i d) = proj (m2 x1 i) (m2 x4) (m1 x5) d := by
  rw [val_main_v7_apply, val_main_v4_apply, val_main_v6_apply, val_main_v5_apply, Ideal.addf_def]
  show _ = (∑ a : Fin 128, x1 (ix2 i a) * x4 (ix2 a d)) + x5 (ix1 d)
  refine congrArg₂ (· + ·) (Finset.sum_congr rfl fun k _ => congrArg₂ (· * ·) (congrArg x1 ?_) (congrArg x4 ?_)) (congrArg x5 ?_) <;> idx_eq

/-- the projected value rows: row i of the second input through the third linear map, at column d -/
private theorem v_apply (i : Fin 8192) (d : Fin 32) :
    val_main_v11 (F := Ideal) x1 x6 x7 (ix2 i d) = proj (m2 x1 i) (m2 x6) (m1 x7) d := by
  rw [val_main_v11_apply, val_main_v8_apply, val_main_v10_apply, val_main_v9_apply, Ideal.addf_def]
  show _ = (∑ a : Fin 128, x1 (ix2 i a) * x6 (ix2 a d)) + x7 (ix1 d)
  refine congrArg₂ (· + ·) (Finset.sum_congr rfl fun k _ => congrArg₂ (· * ·) (congrArg x1 ?_) (congrArg x6 ?_)) (congrArg x7 ?_) <;> idx_eq

/-- the transposed keys at (d, j) are the projected key row j at column d -/
private theorem kT_apply (d : Fin 32) (j : Fin 8192) :
    val_main_v12 (F := Ideal) x1 x4 x5 (ix2 d j) = proj (m2 x1 j) (m2 x4) (m1 x5) d := by
  rw [val_main_v12_apply, show idx_main_v12 (ix2 d j) = ix2 j d from by idx_eq, k_apply]

/-- the score matrix at (i, j) is the inner product of projected query row i and projected key row j -/
private theorem s_apply (i j : Fin 8192) :
    val_main_v13 (F := Ideal) x0 x1 x2 x3 x4 x5 (ix2 i j) = scores (m2 x0) (m2 x1) (m2 x2) (m1 x3) (m2 x4) (m1 x5) i j := by
  rw [val_main_v13_apply]
  show _ = ∑ d : Fin 32, proj (m2 x0 i) (m2 x2) (m1 x3) d * proj (m2 x1 j) (m2 x4) (m1 x5) d
  refine Finset.sum_congr rfl fun k _ => ?_
  rw [show lidx_main_v13 (ix2 i j) k = ix2 i k from by idx_eq, show ridx_main_v13 (ix2 i j) k = ix2 k j from by idx_eq,
    q_apply, kT_apply]

/-- the row maximum: the reduction over the columns of row i is the fold of max over that row's scores, from minus
    infinity; taking the maximum with minus infinity once more changes nothing, the fold being at least its start -/
private theorem mx_apply (i : Fin 8192) :
    val_main_v16 (F := Ideal) x0 x1 x2 x3 x4 x5 (ix1 i) = rowMax (scores (m2 x0) (m2 x1) (m2 x2) (m1 x3) (m2 x4) (m1 x5) i) := by
  have h : S8192x8192.Reduces [1] S8192 := by decide
  have hf : (val_main_v13 (F := Ideal) x0 x1 x2 x3 x4 x5 ∘ h.lift (ix1 i)) = scores (m2 x0) (m2 x1) (m2 x2) (m1 x3) (m2 x4) (m1 x5) i := funext fun (k : Fin 8192) => by
    show val_main_v13 (F := Ideal) x0 x1 x2 x3 x4 x5 (h.lift (ix1 i) k) = _
    rw [show h.lift (ix1 i) k = ix2 i k from by idx_eq, s_apply]
  have e14 : val_main_v14 (F := Ideal) x0 x1 x2 x3 x4 x5 (ix1 i) = rowMax (scores (m2 x0) (m2 x1) (m2 x2) (m1 x3) (m2 x4) (m1 x5) i) := by
    unfold val_main_v14
    rw [Host.reduce_eq_fold_single FloatOps.maximumf _ _ reducesTo_S8192x8192_S8192_d1 h h_S_]
    exact congrArg (fun f => Finset.fold max (Ideal.ofBits .f32 0xFF800000#32) f (Finset.univ : Finset (Fin 8192))) hf
  rw [val_main_v16_apply, e14, val_main_v15_apply, val_main_cst_0_apply, Ideal.maximumf_def, Ideal.ofBits_def]
  unfold rowMax negInf
  exact max_eq_right ((Finset.le_fold_max _).2 (Or.inl le_rfl))

/-- the unnormalised softmax weight at (i, j): the exponential of the score minus the row maximum -/
private theorem w_apply (i j : Fin 8192) :
    val_main_v20 (F := Ideal) x0 x1 x2 x3 x4 x5 (ix2 i j) = wexp (scores (m2 x0) (m2 x1) (m2 x2) (m1 x3) (m2 x4) (m1 x5) i) j := by
  show _ = Ideal.exp (scores (m2 x0) (m2 x1) (m2 x2) (m1 x3) (m2 x4) (m1 x5) i j - rowMax (scores (m2 x0) (m2 x1) (m2 x2) (m1 x3) (m2 x4) (m1 x5) i))
  rw [val_main_v20_apply, val_main_v19_apply, val_main_v18_apply, val_main_v17_apply,
    show idx_main_v17 (idx_main_v18 (ix2 i j)) = ix1 i from by idx_eq, s_apply, mx_apply]
  simp only [Ideal.hostUnary_exp_def, Ideal.subf_def]

/-- the normaliser of row i: the sum of its weights (the sum starts from the word of zero, which is zero) -/
private theorem z_apply (i : Fin 8192) :
    val_main_v21 (F := Ideal) x0 x1 x2 x3 x4 x5 (ix1 i) = wsum (scores (m2 x0) (m2 x1) (m2 x2) (m1 x3) (m2 x4) (m1 x5) i) := by
  show _ = ∑ j : Fin 8192, wexp (scores (m2 x0) (m2 x1) (m2 x2) (m1 x3) (m2 x4) (m1 x5) i) j
  rw [val_main_v21_apply, val_main_cst_1_apply, Ideal.ofBits_def, Ideal.ofBits_zero_f32, zero_add]
  refine Finset.sum_congr rfl fun k _ => ?_
  rw [show idx_main_v21 (ix1 i) k = ix2 i k from by idx_eq, w_apply]

/-- the averaged row: each weight divided by the normaliser, then the weighted sum of the value rows -/
private theorem f_apply (i : Fin 8192) (d : Fin 32) :
    val_main_v25 (F := Ideal) x0 x1 x2 x3 x4 x5 x6 x7 (ix2 i d) = fusedR (scores (m2 x0) (m2 x1) (m2 x2) (m1 x3) (m2 x4) (m1 x5) i) (fun j => proj (m2 x1 j) (m2 x6) (m1 x7)) d := by
  show _ = ∑ j : Fin 8192, Ideal.div (wexp (scores (m2 x0) (m2 x1) (m2 x2) (m1 x3) (m2 x4) (m1 x5) i) j) (wsum (scores (m2 x0) (m2 x1) (m2 x2) (m1 x3) (m2 x4) (m1 x5) i)) * proj (m2 x1 j) (m2 x6) (m1 x7) d
  rw [val_main_v25_apply]
  refine Finset.sum_congr rfl fun k _ => ?_
  rw [show lidx_main_v25 (ix2 i d) k = ix2 i k from by idx_eq, show ridx_main_v25 (ix2 i d) k = ix2 k d from by idx_eq,
    val_main_v24_apply, val_main_v23_apply, val_main_v22_apply,
    show idx_main_v22 (idx_main_v23 (ix2 i k)) = ix1 i from by idx_eq, w_apply, z_apply, v_apply]
  simp only [Ideal.hostDivf_def]

/-- the mean of the averaged row: its sum (from the word of zero) divided by the word of 32 -/
private theorem mean_apply (i : Fin 8192) :
    val_main_v29 (F := Ideal) x0 x1 x2 x3 x4 x5 x6 x7 (ix2 i (0 : Fin 1)) = mean (fusedR (scores (m2 x0) (m2 x1) (m2 x2) (m1 x3) (m2 x4) (m1 x5) i) (fun j => proj (m2 x1 j) (m2 x6) (m1 x7))) := by
  show _ = Ideal.div (∑ d : Fin 32, fusedR (scores (m2 x0) (m2 x1) (m2 x2) (m1 x3) (m2 x4) (m1 x5) i) (fun j => proj (m2 x1 j) (m2 x6) (m1 x7)) d) (Ideal.ofBits .f32 0x42000000#32)
  rw [val_main_v29_apply, val_main_v28_apply, val_main_cst_3_apply, val_main_v27_apply, val_main_v26_apply,
    val_main_cst_2_apply]
  simp only [Ideal.hostDivf_def, Ideal.ofBits_def, Ideal.ofBits_zero_f32, zero_add]
  congr 1
  refine Finset.sum_congr rfl fun k _ => ?_
  rw [show idx_main_v26 (idx_main_v27 (ix2 i (0 : Fin 1))) k = ix2 i k from by idx_eq, f_apply]

/-- the variance of the averaged row: the sum of the squared deviations from the mean divided by the word of 32 -/
private theorem var_apply (i : Fin 8192) :
    val_main_v36 (F := Ideal) x0 x1 x2 x3 x4 x5 x6 x7 (ix2 i (0 : Fin 1)) = var (fusedR (scores (m2 x0) (m2 x1) (m2 x2) (m1 x3) (m2 x4) (m1 x5) i) (fun j => proj (m2 x1 j) (m2 x6) (m1 x7))) := by
  show _ = Ideal.div (∑ d : Fin 32, (fusedR (scores (m2 x0) (m2 x1) (m2 x2) (m1 x3) (m2 x4) (m1 x5) i) (fun j => proj (m2 x1 j) (m2 x6) (m1 x7)) d - mean (fusedR (scores (m2 x0) (m2 x1) (m2 x2) (m1 x3) (m2 x4) (m1 x5) i) (fun j => proj (m2 x1 j) (m2 x6) (m1 x7)))) * (fusedR (scores (m2 x0) (m2 x1) (m2 x2) (m1 x3) (m2 x4) (m1 x5) i) (fun j => proj (m2 x1 j) (m2 x6) (m1 x7)) d - mean (fusedR (scores (m2 x0) (m2 x1) (m2 x2) (m1 x3) (m2 x4) (m1 x5) i) (fun j => proj (m2 x1 j) (m2 x6) (m1 x7))))) (Ideal.ofBits .f32 0x42000000#32)
  rw [val_main_v36_apply, val_main_v35_apply, val_main_cst_5_apply, val_main_v34_apply, val_main_v33_apply,
    val_main_cst_4_apply]
  simp only [Ideal.hostDivf_def, Ideal.ofBits_def, Ideal.ofBits_zero_f32, zero_add]
  congr 1
  refine Finset.sum_congr rfl fun k _ => ?_
  rw [show idx_main_v33 (idx_main_v34 (ix2 i (0 : Fin 1))) k = ix2 i k from by idx_eq, val_main_v32_apply, val_main_v31_apply,
    val_main_v30_apply, show idx_main_v30 (ix2 i k) = ix2 i (0 : Fin 1) from by idx_eq, f_apply, mean_apply]
  simp only [Ideal.mulf_def, Ideal.subf_def]

/-- the normalised row: deviation from the mean times the reciprocal square root of the padded variance, scaled and shifted -/
private theorem n_apply (i : Fin 8192) (d : Fin 32) :
    val_main_v49 (F := Ideal) x0 x1 x2 x3 x4 x5 x6 x7 x8 x9 (ix2 i d) = normed (fusedR (scores (m2 x0) (m2 x1) (m2 x2) (m1 x3) (m2 x4) (m1 x5) i) (fun j => proj (m2 x1 j) (m2 x6) (m1 x7))) (m1 x8) (m1 x9) d := by
  show _ = (fusedR (scores (m2 x0) (m2 x1) (m2 x2) (m1 x3) (m2 x4) (m1 x5) i) (fun j => proj (m2 x1 j) (m2 x6) (m1 x7)) d - mean (fusedR (scores (m2 x0) (m2 x1) (m2 x2) (m1 x3) (m2 x4) (m1 x5) i) (fun j => proj (m2 x1 j) (m2 x6) (m1 x7)))) * Ideal.rsqrt (var (fusedR (scores (m2 x0) (m2 x1) (m2 x2) (m1 x3) (m2 x4) (m1 x5) i) (fun j => proj (m2 x1 j) (m2 x6) (m1 x7))) + Ideal.ofBits .f32 0x3727C5AC#32) * x8 (ix1 d) + x9 (ix1 d)
  rw [val_main_v49_apply, val_main_v48_apply, val_main_v47_apply, val_main_v46_apply, val_main_v45_apply, val_main_v44_apply,
    val_main_v43_apply, val_main_v42_apply, val_main_v41_apply, val_main_v40_apply, val_main_v39_apply, val_main_cst_6_apply,
    val_main_v38_apply, val_main_v37_apply,
    show idx_main_v47 (idx_main_v48 (ix2 i d)) = ix1 d from by idx_eq,
    show idx_main_v44 (idx_main_v45 (ix2 i d)) = ix1 d from by idx_eq,
    show idx_main_v42 (ix2 i d) = ix2 i (0 : Fin 1) from by idx_eq,
    show idx_main_v37 (ix2 i d) = ix2 i (0 : Fin 1) from by idx_eq,
    f_apply, mean_apply, var_apply]
  simp only [Ideal.ofBits_def, Ideal.addf_def, Ideal.mulf_def, Ideal.subf_def, Ideal.hostUnary_rsqrt_def]

end Layers

/-- the reference program's result at row i and column n is the specification's value with each weight divided by the
    normaliser before the weighted sum: the normalised row through the last linear map, plus its bias -/
theorem ref_apply (x0 x1 : (⟨S8192x128, .f32⟩ : BufTy).Contents (Elt Ideal)) (x2 : (⟨S128x32, .f32⟩ : BufTy).Contents (Elt Ideal))
    (x3 : (⟨S32, .f32⟩ : BufTy).Contents (Elt Ideal)) (x4 : (⟨S128x32, .f32⟩ : BufTy).Contents (Elt Ideal))
    (x5 : (⟨S32, .f32⟩ : BufTy).Contents (Elt Ideal)) (x6 : (⟨S128x32, .f32⟩ : BufTy).Contents (Elt Ideal))
    (x7 x8 x9 : (⟨S32, .f32⟩ : BufTy).Contents (Elt Ideal)) (x10 : (⟨S32x128, .f32⟩ : BufTy).Contents (Elt Ideal))
    (x11 : (⟨S128, .f32⟩ : BufTy).Contents (Elt Ideal)) (i : Fin 8192) (n : Fin 128) :
    val_main_v53 (F := Ideal) x0 x1 x2 x3 x4 x5 x6 x7 x8 x9 x10 x11 (ix2 i n)
      = outR (m2 x0) (m2 x1) (m2 x2) (m1 x3) (m2 x4) (m1 x5) (m2 x6) (m1 x7) (m1 x8) (m1 x9) (m2 x10) (m1 x11) i n := by
  show _ = (∑ d : Fin 32, normed (fusedR (scores (m2 x0) (m2 x1) (m2 x2) (m1 x3) (m2 x4) (m1 x5) i) (fun j => proj (m2 x1 j) (m2 x6) (m1 x7))) (m1 x8) (m1 x9) d * x10 (ix2 d n)) + x11 (ix1 n)
  rw [val_main_v53_apply, val_main_v52_apply, val_main_v51_apply, val_main_v50_apply,
    show idx_main_v51 (idx_main_v52 (ix2 i n)) = ix1 n from by idx_eq, Ideal.addf_def]
  congr 1
  refine Finset.sum_congr rfl fun k _ => ?_
  rw [show lidx_main_v50 (ix2 i n) k = ix2 i k from by idx_eq, show ridx_main_v50 (ix2 i n) k = ix2 k n from by idx_eq, n_apply]

end Cert.ReferenceIdeal.RefValue

end
-- ==== Proof.LibGcnAlgebra.lean ====
import Mathlib.Data.EReal.Basic
import Mathlib.Data.EReal.Operations
import Mathlib.Algebra.BigOperators.Ring.Finset
import Mathlib.Algebra.BigOperators.Fin
import Mathlib.Tactic.Ring

/-!
# Algebra of a two-layer graph convolution with segment pooling, on the extended reals

Over abstract finite index types.  Addition and multiplication on the extended
reals do not distribute at the infinities, so every lemma that moves a factor
through a sum assumes its numbers are real (finite).  The pooling lemmas are
pure re-indexings of sums and need no such assumption.
-/

noncomputable section

namespace Cert.Lib.GcnAlgebra

open scoped BigOperators

/-- x is a real number (neither infinity). -/
def IsReal (x : EReal) : Prop := ∃ r : ℝ, x = (r : EReal)

theorem IsReal.zero : IsReal 0 := ⟨0, EReal.coe_zero.symm⟩

theorem IsReal.one : IsReal 1 := ⟨1, EReal.coe_one.symm⟩

theorem IsReal.coe (r : ℝ) : IsReal (r : EReal) := ⟨r, rfl⟩

theorem IsReal.natCast (k : ℕ) : IsReal (k : EReal) := ⟨(k : ℝ), EReal.coe_natCast.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h
  · rw [h]; exact hx
  · rw [h]; exact hy

theorem IsReal.sum {ι : Type} (S : Finset ι) (f : ι → EReal) (hf : ∀ i ∈ S, IsReal (f i)) :
    IsReal (∑ i ∈ S, f i) := by
  classical
  induction S using Finset.induction_on with
  | empty => simpa using IsReal.zero
  | insert a s ha ih =>
    rw [Finset.sum_insert ha]
    exact IsReal.add (hf a (Finset.mem_insert_self a s))
      (ih (fun i hi => hf i (Finset.mem_insert_of_mem hi)))

theorem IsReal.ite {p : Prop} [Decidable p] {x y : EReal} (hx : IsReal x) (hy : IsReal y) :
    IsReal (if p then x else y) := by
  split
  · exact hx
  · exact hy

/-- a finite sum of ones is a natural number -/
theorem IsReal.sum_const_one {ι : Type} (S : Finset ι) :
    (∑ _i ∈ S, (1 : EReal)) = ((S.card : ℕ) : EReal) := by
  rw [Finset.sum_const, nsmul_one]

/-! ### Real witnesses -/

/-- a sum of real numbers, each read as an extended real, is the real sum read as an extended real -/
private theorem coe_sum {ι : Type} (S : Finset ι) (g : ι → ℝ) :
    (∑ i ∈ S, ((g i : ℝ) : EReal)) = ((∑ i ∈ S, g i : ℝ) : EReal) := by
  classical
  induction S using Finset.induction_on with
  | empty => rw [Finset.sum_empty, Finset.sum_empty, EReal.coe_zero]
  | insert a s ha ih => rw [Finset.sum_insert ha, Finset.sum_insert ha, ih, EReal.coe_add]

/-- a real extended number is its own real part -/
private theorem IsReal.coe_toReal {x : EReal} (hx : IsReal x) : ((x.toReal : ℝ) : EReal) = x := by
  obtain ⟨r, rfl⟩ := hx
  rw [EReal.toReal_coe]

/-! ### Layer 1 -/

/-- LAYER 1, one node and one column: multiplying the aggregated sum by D afterwards is the sum of
the terms each multiplied by D. -/
theorem layer1_node {ε : Type} (S : Finset ε) (h de : ε → EReal) (D : EReal)
    (hh : ∀ e ∈ S, IsReal (h e)) (hde : ∀ e ∈ S, IsReal (de e)) (hD : IsReal D) :
    (0 + ∑ e ∈ S, h e * de e) * D = 0 + ∑ e ∈ S, h e * (de e * D) := by
  obtain ⟨d, rfl⟩ := hD
  -- both sums are real sums of the real parts
  have e1 : (∑ e ∈ S, h e * de e)
      = ((∑ e ∈ S, (h e).toReal * (de e).toReal : ℝ) : EReal) := by
    rw [← coe_sum]
    refine Finset.sum_congr rfl (fun e he => ?_)
    rw [EReal.coe_mul, (hh e he).coe_toReal, (hde e he).coe_toReal]
  have e2 : (∑ e ∈ S, h e * (de e * (d : EReal)))
      = ((∑ e ∈ S, (h e).toReal * ((de e).toReal * d) : ℝ) : EReal) := by
    rw [← coe_sum]
    refine Finset.sum_congr rfl (fun e he => ?_)
    rw [EReal.coe_mul, EReal.coe_mul, (hh e he).coe_toReal, (hde e he).coe_toReal]
  rw [e1, e2, zero_add, zero_add, ← EReal.coe_mul, Finset.sum_mul]
  congr 1
  exact Finset.sum_congr rfl (fun e _ => mul_assoc _ _ _)

/-! ### Pooling: re-indexing only -/

/-- a 0/1 mask times g, summed, is g summed over where the mask is set -/
theorem sum_mask_mul {ι : Type} [Fintype ι] (P : ι → Prop) [DecidablePred P] (g : ι → EReal) :
    (∑ i, (if P i then (1 : EReal) else 0) * g i) = ∑ i ∈ Finset.univ.filter P, g i := by
  rw [Finset.sum_filter]
  refine Finset.sum_congr rfl (fun i _ => ?_)
  by_cases hP : P i
  · rw [if_pos hP, if_pos hP, one_mul]
  · rw [if_neg hP, if_neg hP, zero_mul]

/-- T tiles of R consecutive rows are all T*R rows -/
theorem sum_tiles (T R : ℕ) (f : ℕ → EReal) :
    (∑ t : Fin T, ∑ r : Fin R, f (t.val * R + r.val)) = ∑ n : Fin (T * R), f n.val := by
  -- row r of tile t is row r + R * t of the whole; this pairing is a bijection
  rw [← Fintype.sum_prod_type' (fun (t : Fin T) (r : Fin R) => f (t.val * R + r.val)),
    ← Equiv.sum_comp finProdFinEquiv (fun n : Fin (T * R) => f n.val)]
  refine Fintype.sum_congr _ _ (fun p => ?_)
  rw [finProdFinEquiv_apply_val, Nat.mul_comm p.1.val R, Nat.add_comm]

/-- POOLING: an accumulator that is 0 + (tile 0's part) after point 0 and (previous) + (tile t's
part) after point t holds, after the last of T points, 0 + the sum of all parts. -/
theorem pool_fold (T : ℕ) (hT : 0 < T) (acc : ℕ → EReal) (part : ℕ → EReal)
    (h0 : acc 0 = 0 + part 0) (hs : ∀ t, 0 < t → t < T → acc t = acc (t - 1) + part t) :
    acc (T - 1) = 0 + ∑ t : Fin T, part t.val := by
  -- after point t the accumulator holds 0 + the parts of points 0..t
  have key : ∀ t, t < T → acc t = 0 + ∑ i ∈ Finset.range (t + 1), part i := by
    intro t
    induction t with
    | zero =>
      intro _
      rw [h0, Finset.sum_range_one]
    | succ n ih =>
      intro hn
      rw [hs (n + 1) (Nat.succ_pos n) hn, Nat.add_sub_cancel, ih (Nat.lt_of_succ_lt hn),
        Finset.sum_range_succ _ (n + 1), add_assoc]
  rw [key (T - 1) (Nat.sub_lt hT Nat.one_pos), Nat.sub_add_cancel hT,
    Fin.sum_univ_eq_sum_range part T]

/-! ### Layer 2 -/

/-- the layer-2 identity over the reals: distribute, and swap the sum over edges with the sum over
the contracted column index -/
private theorem layer2_real {ε κ : Type} [Fintype κ] (S : Finset ε) (x : ε → κ → ℝ) (a : ε → ℝ)
    (d : ℝ) (yr w : κ → ℝ) :
    (∑ k, ((∑ e ∈ S, x e k * a e) * d + yr k * (d * d)) * w k)
      = (∑ e ∈ S, (∑ k, x e k * w k) * (a e * d)) + (∑ k, yr k * w k) * (d * d) := by
  have h1 : ∀ k, ((∑ e ∈ S, x e k * a e) * d + yr k * (d * d)) * w k
      = (∑ e ∈ S, x e k * w k * (a e * d)) + yr k * w k * (d * d) := by
    intro k
    rw [add_mul, Finset.sum_mul, Finset.sum_mul]
    congr 1
    · exact Finset.sum_congr rfl (fun e _ => by ring)
    · ring
  have h2 : (∑ k, ∑ e ∈ S, x e k * w k * (a e * d))
      = ∑ e ∈ S, (∑ k, x e k * w k) * (a e * d) := by
    rw [Finset.sum_comm]
    exact Finset.sum_congr rfl (fun e _ => (Finset.sum_mul _ _ _).symm)
  have h3 : (∑ k, yr k * w k * (d * d)) = (∑ k, yr k * w k) * (d * d) :=
    (Finset.sum_mul _ _ _).symm
  rw [Finset.sum_congr rfl (fun k _ => h1 k), Finset.sum_add_distrib, h2, h3]

/-- LAYER 2, one node n and one output column j. X e k = x1[source e, k], de e = dinv[source e],
D = dinv[n], y k = x1[n, k], W k = W2[k, j], b = b2[j].
Left: the kernel (aggregate 16 columns, scale, then apply W). Right: the reference (apply W, then
aggregate and scale). -/
theorem layer2_node {ε κ : Type} [Fintype κ] (S : Finset ε) (X : ε → κ → EReal) (de : ε → EReal)
    (D : EReal) (y W : κ → EReal) (b : EReal)
    (hX : ∀ e ∈ S, ∀ k, IsReal (X e k)) (hde : ∀ e ∈ S, IsReal (de e)) (hD : IsReal D)
    (hy : ∀ k, IsReal (y k)) (hW : ∀ k, IsReal (W k)) :
    (∑ k, ((0 + ∑ e ∈ S, X e k * de e) * D + y k * (D * D)) * W k) + b
      = ((0 + ∑ e ∈ S, (∑ k, X e k * W k) * (de e * D)) + (∑ k, y k * W k) * (D * D)) + b := by
  obtain ⟨d, rfl⟩ := hD
  choose yr hyr using hy
  choose w hw using hW
  obtain rfl : y = fun k => ((yr k : ℝ) : EReal) := funext hyr
  obtain rfl : W = fun k => ((w k : ℝ) : EReal) := funext hw
  -- the bias b may be anything: the two sides agree before it is added
  congr 1
  -- the kernel's side is a real number
  have hL : (∑ k, ((0 + ∑ e ∈ S, X e k * de e) * (d : EReal)
        + ((yr k : ℝ) : EReal) * ((d : EReal) * (d : EReal))) * ((w k : ℝ) : EReal))
      = ((∑ k, ((∑ e ∈ S, (X e k).toReal * (de e).toReal) * d + yr k * (d * d)) * w k : ℝ)
          : EReal) := by
    rw [← coe_sum]
    refine Finset.sum_congr rfl (fun k _ => ?_)
    have hk : (∑ e ∈ S, X e k * de e)
        = ((∑ e ∈ S, (X e k).toReal * (de e).toReal : ℝ) : EReal) := by
      rw [← coe_sum]
      refine Finset.sum_congr rfl (fun e he => ?_)
      rw [EReal.coe_mul, (hX e he k).coe_toReal, (hde e he).coe_toReal]
    rw [hk, zero_add, EReal.coe_mul, EReal.coe_add, EReal.coe_mul, EReal.coe_mul, EReal.coe_mul]
  -- the reference's aggregated part is a real number
  have hR1 : (∑ e ∈ S, (∑ k, X e k * ((w k : ℝ) : EReal)) * (de e * (d : EReal)))
      = ((∑ e ∈ S, (∑ k, (X e k).toReal * w k) * ((de e).toReal * d) : ℝ) : EReal) := by
    rw [← coe_sum]
    refine Finset.sum_congr rfl (fun e he => ?_)
    have hk : (∑ k, X e k * ((w k : ℝ) : EReal))
        = ((∑ k, (X e k).toReal * w k : ℝ) : EReal) := by
      rw [← coe_sum]
      refine Finset.sum_congr rfl (fun k _ => ?_)
      rw [EReal.coe_mul, (hX e he k).coe_toReal]
    rw [hk, EReal.coe_mul, EReal.coe_mul, (hde e he).coe_toReal]
  -- the reference's self-loop part is a real number
  have hR2 : (∑ k, ((yr k : ℝ) : EReal) * ((w k : ℝ) : EReal)) * ((d : EReal) * (d : EReal))
      = (((∑ k, yr k * w k) * (d * d) : ℝ) : EReal) := by
    have hk : (∑ k, ((yr k : ℝ) : EReal) * ((w k : ℝ) : EReal))
        = ((∑ k, yr k * w k : ℝ) : EReal) := by
      rw [← coe_sum]
      exact Finset.sum_congr rfl (fun k _ => (EReal.coe_mul _ _).symm)
    rw [hk, ← EReal.coe_mul, ← EReal.coe_mul]
  rw [hL, hR1, hR2, zero_add, ← EReal.coe_add, layer2_real]

end Cert.Lib.GcnAlgebra
-- ==== Proof.Algebra.lean ====
/-
  The two ways of averaging the value rows agree when every number involved is real.

  Every projected entry and every score is a finite sum of products of reals, hence real.  The row maximum,
  taken from minus infinity over a non-empty row of reals, is real.  So each softmax weight is the exponential
  of a real, a positive real, and the normaliser is a positive real.  Division by a non-zero real is
  multiplication by its reciprocal, and over the reals a factor moves through a finite sum.
-/
import proofs.«413681_j1288490188988_3_alg».proof.Proof.Spec
import proofs.«413681_j1288490188988_3_alg».proof.Proof.LibGcnAlgebra
import Mathlib.Analysis.SpecialFunctions.Exp
import Mathlib.Data.Finset.Fold
import Mathlib.Algebra.Order.BigOperators.Group.Finset
import Mathlib.Tactic.Ring

noncomputable section

namespace Cert.Attn

open Cert.Lib.GcnAlgebra
open Idealize.ShloMosaic
open scoped BigOperators

/-- a sum of real numbers, each read as an extended real, is the real sum read as an extended real -/
private theorem coe_sum_real {ι : Type} (S : Finset ι) (g : ι → ℝ) :
    (∑ i ∈ S, ((g i : ℝ) : EReal)) = ((∑ i ∈ S, g i : ℝ) : EReal) := by
  classical
  induction S using Finset.induction_on with
  | empty => rw [Finset.sum_empty, Finset.sum_empty, EReal.coe_zero]
  | insert a s ha ih => rw [Finset.sum_insert ha, Finset.sum_insert ha, ih, EReal.coe_add]

/-- a projected entry of real data is real -/
private theorem isReal_proj (x : Fin 128 → EReal) (W : Fin 128 → Fin 32 → EReal) (b : Fin 32 → EReal)
    (hx : ∀ a, IsReal (x a)) (hW : ∀ a d, IsReal (W a d)) (hb : ∀ d, IsReal (b d)) (d : Fin 32) :
    IsReal (proj x W b d) := by
  unfold proj
  exact IsReal.add (IsReal.sum _ _ (fun a _ => IsReal.mul (hx a) (hW a d))) (hb d)

/-- a score of real rows is real -/
private theorem isReal_score (q : Fin 32 → EReal) (k : Fin 8192 → Fin 32 → EReal)
    (hq : ∀ d, IsReal (q d)) (hk : ∀ j d, IsReal (k j d)) (j : Fin 8192) : IsReal (score q k j) := by
  unfold score
  exact IsReal.sum _ _ (fun d _ => IsReal.mul (hq d) (hk j d))

/-- the maximum from minus infinity over a non-empty finite family of reals is real -/
private theorem isReal_fold_max {ι : Type} (S : Finset ι) (f : ι → EReal) (hf : ∀ i, IsReal (f i)) :
    S.Nonempty → IsReal (S.fold max ⊥ f) := by
  classical
  induction S using Finset.induction_on with
  | empty => intro h; exact absurd h Finset.not_nonempty_empty
  | insert a s ha ih =>
    intro _
    rw [Finset.fold_insert ha]
    rcases s.eq_empty_or_nonempty with hs | hs
    · subst hs
      rw [Finset.fold_empty, max_bot_right]
      exact hf a
    · exact IsReal.max (hf a) (ih hs)

/-- the row maximum of real scores is real -/
private theorem isReal_rowMax (s : Fin 8192 → EReal) (hs : ∀ j, IsReal (s j)) : IsReal (rowMax s) := by
  unfold rowMax
  rw [negInf_eq]
  exact isReal_fold_max _ s hs ⟨⟨0, by norm_num⟩, Finset.mem_univ _⟩

/-- over the reals, with a non-zero normaliser: dividing the weighted sum afterwards is
dividing each weight first -/
private theorem fused_core (p w : Fin 8192 → ℝ) (l : ℝ) (hl : l ≠ 0) :
    Ideal.div (∑ j : Fin 8192, ((p j : ℝ) : EReal) * ((w j : ℝ) : EReal)) (l : EReal)
      = ∑ j : Fin 8192, Ideal.div ((p j : ℝ) : EReal) (l : EReal) * ((w j : ℝ) : EReal) := by
  rw [Ideal.div_coe hl]
  simp_rw [Ideal.div_coe hl, ← EReal.coe_mul]
  rw [coe_sum_real, coe_sum_real, ← EReal.coe_mul, Finset.sum_mul]
  congr 1
  exact Finset.sum_congr rfl (fun j _ => by ring)

/-- the two averagings agree on real scores and real value rows -/
private theorem fused_real (s : Fin 8192 → EReal) (v : Fin 8192 → Fin 32 → EReal)
    (hs : ∀ j, IsReal (s j)) (hv : ∀ j d, IsReal (v j d)) : fusedK s v = fusedR s v := by
  funext d
  obtain ⟨m, hm⟩ := isReal_rowMax s hs
  choose a ha using hs
  choose w hw using hv
  -- each weight is the exponential of a real
  have hp : ∀ j, wexp s j = ((Real.exp (a j - m) : ℝ) : EReal) := by
    intro j
    unfold wexp
    rw [ha j, hm, ← EReal.coe_sub, Ideal.exp_coe]
  -- the normaliser is the real sum of them
  have hl : wsum s = ((∑ j : Fin 8192, Real.exp (a j - m) : ℝ) : EReal) := by
    unfold wsum
    rw [← coe_sum_real]
    exact Finset.sum_congr rfl (fun j _ => hp j)
  -- which is positive
  have hpos : (∑ j : Fin 8192, Real.exp (a j - m)) ≠ 0 :=
    ne_of_gt (Finset.sum_pos (fun j _ => Real.exp_pos _) ⟨⟨0, by norm_num⟩, Finset.mem_univ _⟩)
  show Ideal.div (∑ j : Fin 8192, wexp s j * v j d) (wsum s)
      = ∑ j : Fin 8192, Ideal.div (wexp s j) (wsum s) * v j d
  rw [hl]
  simp only [hp, hw]
  exact fused_core (fun j => Real.exp (a j - m)) (fun j => w j d) _ hpos

theorem outK_eq_outR (x1 x2 : Fin 8192 → Fin 128 → EReal) (Wq : Fin 128 → Fin 32 → EReal) (bq : Fin 32 → EReal)
    (Wk : Fin 128 → Fin 32 → EReal) (bk : Fin 32 → EReal) (Wv : Fin 128 → Fin 32 → EReal) (bv : Fin 32 → EReal)
    (gamma beta : Fin 32 → EReal) (Wo : Fin 32 → Fin 128 → EReal) (bo : Fin 128 → EReal)
    (h1 : ∀ i a, IsReal (x1 i a)) (h2 : ∀ j a, IsReal (x2 j a))
    (hWq : ∀ a d, IsReal (Wq a d)) (hbq : ∀ d, IsReal (bq d))
    (hWk : ∀ a d, IsReal (Wk a d)) (hbk : ∀ d, IsReal (bk d))
    (hWv : ∀ a d, IsReal (Wv a d)) (hbv : ∀ d, IsReal (bv d))
    (i : Fin 8192) (n : Fin 128) :
    outK x1 x2 Wq bq Wk bk Wv bv gamma beta Wo bo i n = outR x1 x2 Wq bq Wk bk Wv bv gamma beta Wo bo i n := by
  -- the value rows and the scores of row i are real
  have hv : ∀ j d, IsReal (proj (x2 j) Wv bv d) := fun j d => isReal_proj _ _ _ (h2 j) hWv hbv d
  have hs : ∀ j, IsReal (scores x1 x2 Wq bq Wk bk i j) := by
    intro j
    unfold scores
    exact isReal_score _ _ (fun d => isReal_proj _ _ _ (h1 i) hWq hbq d)
      (fun j d => isReal_proj _ _ _ (h2 j) hWk hbk d) j
  unfold outK outR
  rw [fused_real _ _ hs hv]

end Cert.Attn

end
-- ==== Proof.Finite.lean ====
/- From the precondition that every float input is finite to the fact that every entry of the first
   eight inputs is a real number. The precondition is a conjunction, nested to the left, of twelve bits;
   each bit says of one input array that every entry's absolute value lies strictly below +∞. -/
import proofs.«413681_j1288490188988_3_alg».proof.Pre_finite_inputs
import proofs.«413681_j1288490188988_3_alg».proof.Proof.Gen.Pre_finite_inputs
import proofs.«413681_j1288490188988_3_alg».proof.Proof.LibGcnAlgebra
import Idealize.ShloMosaic.PureOps.Ideal
import Idealize.ShloMosaic.Lib.ReduceAll

noncomputable section

namespace Cert.Pre_finite_inputs.Finite

open Cert.Pre_finite_inputs Idealize.ShloMosaic Cert.Lib.GcnAlgebra

/-- The rank-0 shape has exactly one index. -/
private instance subsingleton_scalar_idx : Subsingleton S_.Idx := ⟨fun a b => funext fun d => d.elim0⟩

/-- An extended real whose absolute value, the larger of x and -x, lies strictly below +∞ is a real
    number: at -∞ the negation is +∞, at +∞ the number itself is, and both make the maximum +∞. -/
private theorem isReal_of_abs_lt_top (x : EReal) (h : max x (-x) < ⊤) : IsReal x := by
  induction x using EReal.rec with
  | bot => simp at h
  | top => simp at h
  | coe r => exact ⟨r, rfl⟩

/-- The 32-bit pattern with all eight exponent bits set and a zero fraction denotes +∞. -/
private theorem ofBits_inf : Ideal.ofBits .f32 0x7F800000#32 = (⊤ : EReal) := by
  simp [Ideal.ofBits, Ideal.ieee]

/-- A truth value whose one-bit word is 1 is true. -/
private theorem ofBool_eq_one : ∀ b : Bool, BitVec.ofBool b = 1#1 → b = true := by decide

/-- A conjunction of two one-bit arrays that is 1 at an index has both conjuncts 1 there. -/
private theorem andi_apply_eq_one {s : Shape} (a b : IVec s 1) (i : s.Idx) (h : andi a b i = 1#1) :
    a i = 1#1 ∧ b i = 1#1 := IntOp.andi_eq_one.1 h

/-- One input array, any shape: if "for all entries, |x| < +∞" (the comparison against the broadcast
    +∞, reduced by "and" over every axis into a single bit) came out 1, every entry is a real number. -/
private theorem real_of_all {S : Shape} {axes : List (Fin S.rank)} (x : FVec Ideal S .f32)
    (hb : S_.BroadcastsInDim S (![] : Fin 0 → Fin S.rank)) (hr : S.ReducesTo axes S_) (hu : 0 < S_.numel)
    (j : S_.Idx)
    (e : Host.reduce IntOp.andi
          (cmpf .olt (Host.absf x) (broadcastInDim S ![] hb (constant (F := Ideal) S_ .f32 0x7F800000#32)))
          (constantI S_ 1 1#1) hr hu j = 1#1) :
    ∀ i, IsReal (x i) := by
  intro i
  have hi := Host.reduce_andi_all _ _ hr hu j e i
  have hi' : Ideal.cmp .olt (max (x i) (-(x i))) (Ideal.ofBits .f32 0x7F800000#32) = 1#1 := hi
  rw [ofBits_inf] at hi'
  exact isReal_of_abs_lt_top (x i) (of_decide_eq_true (ofBool_eq_one _ hi'))

theorem real_of_finite [Cert.Pre_finite_inputs.Facts]
    (x0 x1 : FVec Ideal S8192x128 .f32) (x2 : FVec Ideal S128x32 .f32) (x3 : FVec Ideal S32 .f32)
    (x4 : FVec Ideal S128x32 .f32) (x5 : FVec Ideal S32 .f32) (x6 : FVec Ideal S128x32 .f32) (x7 : FVec Ideal S32 .f32)
    (x8 x9 : FVec Ideal S32 .f32) (x10 : FVec Ideal S32x128 .f32) (x11 : FVec Ideal S128 .f32)
    (h : Cert.Pre_finite_inputs.fn (F := Ideal) x0 x1 x2 x3 x4 x5 x6 x7 x8 x9 x10 x11 = fun _ => 1#1) :
    (∀ i, IsReal (x0 i)) ∧ (∀ i, IsReal (x1 i)) ∧ (∀ i, IsReal (x2 i)) ∧ (∀ i, IsReal (x3 i))
      ∧ (∀ i, IsReal (x4 i)) ∧ (∀ i, IsReal (x5 i)) ∧ (∀ i, IsReal (x6 i)) ∧ (∀ i, IsReal (x7 i)) := by
  -- the predicate's single bit, with the twelve conjuncts in view
  have h0 := congrFun h (fun a => a.elim0)
  dsimp only [fn, fn_part1, fn_part2, fn_part3] at h0
  -- the conjunction is nested to the left: peel the last conjunct off, eleven times
  obtain ⟨h0, _⟩ := andi_apply_eq_one _ _ _ h0
  obtain ⟨h0, _⟩ := andi_apply_eq_one _ _ _ h0
  obtain ⟨h0, _⟩ := andi_apply_eq_one _ _ _ h0
  obtain ⟨h0, _⟩ := andi_apply_eq_one _ _ _ h0
  obtain ⟨h0, e7⟩ := andi_apply_eq_one _ _ _ h0
  obtain ⟨h0, e6⟩ := andi_apply_eq_one _ _ _ h0
  obtain ⟨h0, e5⟩ := andi_apply_eq_one _ _ _ h0
  obtain ⟨h0, e4⟩ := andi_apply_eq_one _ _ _ h0
  obtain ⟨h0, e3⟩ := andi_apply_eq_one _ _ _ h0
  obtain ⟨h0, e2⟩ := andi_apply_eq_one _ _ _ h0
  obtain ⟨e0, e1⟩ := andi_apply_eq_one _ _ _ h0
  exact ⟨real_of_all x0 _ _ _ _ e0, real_of_all x1 _ _ _ _ e1, real_of_all x2 _ _ _ _ e2,
    real_of_all x3 _ _ _ _ e3, real_of_all x4 _ _ _ _ e4, real_of_all x5 _ _ _ _ e5,
    real_of_all x6 _ _ _ _ e6, real_of_all x7 _ _ _ _ e7⟩

end Cert.Pre_finite_inputs.Finite

end
-- ==== Proof.lean ====
/-
  A block of cross-attention (queries from one input, keys and values from another), a layer normalisation and a
  linear map, computed by two launches, against the same computation written with whole-array operations.

  The two sides apply the same operations to the same projected rows, with one difference: the kernel divides the
  weighted sum of the value rows by the softmax normaliser afterwards, the reference divides each weight by the
  normaliser first.  The inputs are finite, so every projected entry and every score is a real number, every weight
  is the exponential of a real and the normaliser is a positive real; over the reals the two orders agree.  Everything
  after the average (mean, variance, reciprocal square root, scale, shift, the last product) is the same function
  of the averaged row on both sides.  A change of float format is the identity on the extended reals, and a sum
  does not depend on its tiling, so the kernel's blocks of 1024 and 256 rows read as the whole arrays.
-/
import proofs.«413681_j1288490188988_3_alg».proof.Defs
import proofs.«413681_j1288490188988_3_alg».proof.Proof.Gen.Kernel
import proofs.«413681_j1288490188988_3_alg».proof.Proof.Gen.Kernel.Frame
import proofs.«413681_j1288490188988_3_alg».proof.Proof.Gen.KernelIdeal
import proofs.«413681_j1288490188988_3_alg».proof.Proof.Gen.KernelIdeal.Frame
import proofs.«413681_j1288490188988_3_alg».proof.Proof.Gen.ReferenceIdeal
import proofs.«413681_j1288490188988_3_alg».proof.Proof.Gen.ReferenceIdeal.Run
import proofs.«413681_j1288490188988_3_alg».proof.Proof.Gen.ReferenceIdeal.Read
import proofs.«413681_j1288490188988_3_alg».proof.Proof.Gen.Pre_finite_inputs
import proofs.«413681_j1288490188988_3_alg».proof.Proof.KernelValue
import proofs.«413681_j1288490188988_3_alg».proof.Proof.RefValue
import proofs.«413681_j1288490188988_3_alg».proof.Proof.Algebra
import proofs.«413681_j1288490188988_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

section Claims

-- the side conditions the programs and the precondition state, as proved by the generated modules
local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite_inputs.Facts := Cert.Pre_finite_inputs.Gen.facts

/-- the kernel as printed runs, its arguments unchanged -/
theorem frame_k : Cert.frame_Kernel := fun m ρ _ => Cert.Kernel.Gen.frame m ρ

/-- the idealized kernel runs, its arguments unchanged -/
theorem frame_ki : Cert.frame_KernelIdeal := fun m ρ _ => Cert.KernelIdeal.Gen.frame m ρ

/-- the idealized reference runs, its arguments unchanged: its run with the result dropped -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the same function of the arguments: the kernel's at the attention with
    the normaliser divided out after the weighted sum, the reference's with each weight divided first, equal index by
    index because the finite inputs make every number involved real. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq]
  obtain ⟨a0, a1, a2, a3, a4, a5, a6, a7, a8, a9, a10, a11⟩ := hagree c
  rw [a0, a1, a2, a3, a4, a5, a6, a7, a8, a9, a10, a11]
  funext idx
  obtain ⟨i, n, rfl⟩ : ∃ (i : Fin 8192) (n : Fin 128), idx = ix2 i n := ⟨idx 0, idx 1, eq_ix2 idx⟩
  obtain ⟨r0, r1, r2, r3, r4, r5, r6, r7⟩ := Cert.Pre_finite_inputs.Finite.real_of_finite _ _ _ _ _ _ _ _ _ _ _ _ (hpre c)
  refine (Cert.ReferenceIdeal.RefValue.ref_apply _ _ _ _ _ _ _ _ _ _ _ _ i n).trans ?_
  refine Eq.trans ?_ (Cert.KernelIdeal.ASpec.outArr_kv _ _ _ _ _ _ _ _ _ _ _ _ i n).symm
  exact (Cert.Attn.outK_eq_outR _ _ _ _ _ _ _ _ _ _ _ _
    (fun i a => r0 (ix2 i a)) (fun j a => r1 (ix2 j a)) (fun a d => r2 (ix2 a d)) (fun d => r3 (ix1 d))
    (fun a d => r4 (ix2 a d)) (fun d => r5 (ix1 d)) (fun a d => r6 (ix2 a d)) (fun d => r7 (ix1 d)) i n).symm

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
